-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x26 : Shape := ⟨2, ![100000, 26]⟩
abbrev S2x1600000 : Shape := ⟨2, ![2, 1600000]⟩
abbrev S100000 : Shape := ⟨1, ![100000]⟩
abbrev S26x128 : Shape := ⟨2, ![26, 128]⟩
abbrev S128 : Shape := ⟨1, ![128]⟩
abbrev S128x128 : Shape := ⟨2, ![128, 128]⟩
abbrev S_ : Shape := ⟨0, ![]⟩

class Facts : Prop where
  bcast_S_S100000x26 : S_.BroadcastsInDim S100000x26 (![] : Fin 0 → Fin S100000x26.rank)
  reducesTo_S100000x26_S_d0_1 : S100000x26.ReducesTo [0, 1] S_
  h_S_ : 0 < S_.numel
  bcast_S_S26x128 : S_.BroadcastsInDim S26x128 (![] : Fin 0 → Fin S26x128.rank)
  reducesTo_S26x128_S_d0_1 : S26x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x26 .f32) (main_arg1 : IVec S2x1600000 32) (main_arg2 : IVec S100000 32) (main_arg3 : FVec F S26x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x26 .f32 := Host.absf main_arg0
  let main_cst : FVec F S_ .f32 := constant S_ .f32 0x7F800000#32
  let main_v1 : FVec F S100000x26 .f32 := broadcastInDim S100000x26 ![] bcast_S_S100000x26 main_cst
  let main_v2 : IVec S100000x26 1 := cmpf .olt main_v0 main_v1
  let main_c : IVec S_ 1 := constantI S_ 1 1#1
  let main_v3 : IVec S_ 1 := (fun x v => Host.reduce IntOp.andi x v reducesTo_S100000x26_S_d0_1 h_S_) main_v2 main_c
  let main_v4 : FVec F S26x128 .f32 := Host.absf main_arg3
  let main_cst_0 : FVec F S_ .f32 := constant S_ .f32 0x7F800000#32
  let main_v5 : FVec F S26x128 .f32 := broadcastInDim S26x128 ![] bcast_S_S26x128 main_cst_0
  let main_v6 : IVec S26x128 1 := cmpf .olt main_v4 main_v5
  let main_c_1 : IVec S_ 1 := constantI S_ 1 1#1
  let main_v7 : IVec S_ 1 := (fun x v => Host.reduce IntOp.andi x v reducesTo_S26x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x26 : Shape := ⟨2, ![100000, 26]⟩
abbrev S2x1600000 : Shape := ⟨2, ![2, 1600000]⟩
abbrev S100000 : Shape := ⟨1, ![100000]⟩
abbrev S26x128 : Shape := ⟨2, ![26, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x26 : Shape := ⟨2, ![5000, 26]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S2048x128 : Shape := ⟨2, ![2048, 128]⟩
abbrev S2048x1 : Shape := ⟨2, ![2048, 1]⟩

abbrev nBuf : Space → Nat
  | .hbm => 94
  | .vmem => 42
  | .smem => 0
  | _ => 0

abbrev bufTy : (tb : Table) → Fin (tcTables nBuf tb) → BufTy
  | .hbm, ⟨0, _⟩ => ⟨S100000x26, .f32⟩
  | .hbm, ⟨1, _⟩ => ⟨S2x1600000, .i32⟩
  | .hbm, ⟨2, _⟩ => ⟨S100000, .i32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .f32⟩
  | .hbm, ⟨41, _⟩ => ⟨S_, .f32⟩
  | .hbm, ⟨42, _⟩ => ⟨S100000x128, .f32⟩
  | .hbm, ⟨43, _⟩ => ⟨S1700000x1, .i32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S_, .f32⟩
  | .hbm, ⟨80, _⟩ => ⟨S2048x128, .f32⟩
  | .hbm, ⟨81, _⟩ => ⟨S100000x1, .i32⟩
  | .hbm, ⟨82, _⟩ => ⟨S2048x128, .f32⟩
  | .hbm, ⟨83, _⟩ => ⟨S_, .f32⟩
  | .hbm, ⟨84, _⟩ => ⟨S100000x1, .f32⟩
  | .hbm, ⟨85, _⟩ => ⟨S_, .f32⟩
  | .hbm, ⟨86, _⟩ => ⟨S2048x1, .f32⟩
  | .hbm, ⟨87, _⟩ => ⟨S100000x1, .i32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S2048x128, .f32⟩
  | .hbm, ⟨93, _⟩ => ⟨S2048x128, .f32⟩
  | .local _ .vmem, ⟨0, _⟩ => ⟨S5000x26, .f32⟩
  | .local _ .vmem, ⟨1, _⟩ => ⟨S5000x26, .f32⟩
  | .local _ .vmem, ⟨2, _⟩ => ⟨S26x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x1, .f32⟩
  | .local _ .vmem, ⟨32, _⟩ => ⟨S5000x1, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S26x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x26_S5000x26_0_0 : ∀ a, (![0, 0] : Fin 2 → Nat) a + S5000x26.size a ≤ S5000x26.size a
  h_S5000x26 : 0 < S5000x26.numel
  bitsLt_bf16_f32 : FTy.bits .bf16 < FTy.bits .f32
  inb_S26x128_S26x128_0_0 : ∀ a, (![0, 0] : Fin 2 → Nat) a + S26x128.size a ≤ S26x128.size a
  h_S26x128 : 0 < S26x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  scatter_S100000_S1700000x1_S1700000_n_0_0_1_wf : ScatterDims.WF S100000 S1700000x1 S1700000 [] [0] [0] 1
  dot_S5000x26_S26x128_S5000x128_1_0_0_1_n_n_wf : DotDims.WF S5000x26 S26x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  scatter_S2048x128_S100000x1_S100000x128_1_0_0_1_wf : ScatterDims.WF S2048x128 S100000x1 S100000x128 [1] [0] [0] 1
  scatter_S2048x1_S100000x1_S100000x1_1_0_0_1_wf : ScatterDims.WF S2048x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x26.size a ≤ S100000x26.size a
  hwx0_0 : ∀ i : grid0.Coords, EltTy.bits .f32 = 32 ∨ (Rect.block (s := S100000x26) S5000x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x128.size a ≤ S26x128.size a
  hwx0_1 : ∀ i : grid0.Coords, EltTy.bits .f32 = 32 ∨ (Rect.block (s := S26x128) S26x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x26_S26x128_S5000x128_1_0_0_1_n_n : DotDims S5000x26 S26x128 S5000x128 where
  lhsContracting := [1]
  rhsContracting := [0]
  lhsNonContracting := [0]
  rhsNonContracting := [1]
  lhsBatch := []
  rhsBatch := []
  wf := dot_S5000x26_S26x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf

abbrev win0_0 : Pipeline.Window sig grid0 :=
  Pipeline.Window.ofSpec (Memref.whole main_arg0) S5000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S26x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v52) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x26 : Shape := ⟨2, ![100000, 26]⟩
abbrev S2x1600000 : Shape := ⟨2, ![2, 1600000]⟩
abbrev S100000 : Shape := ⟨1, ![100000]⟩
abbrev S26x128 : Shape := ⟨2, ![26, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x26, .f32⟩
  | .hbm, ⟨1, _⟩ => ⟨S2x1600000, .i32⟩
  | .hbm, ⟨2, _⟩ => ⟨S100000, .i32⟩
  | .hbm, ⟨3, _⟩ => ⟨S26x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S_, .f32⟩
  | .hbm, ⟨114, _⟩ => ⟨S2048x128, .f32⟩
  | .hbm, ⟨115, _⟩ => ⟨S100000x1, .i32⟩
  | .hbm, ⟨116, _⟩ => ⟨S2048x128, .f32⟩
  | .hbm, ⟨117, _⟩ => ⟨S_, .f32⟩
  | .hbm, ⟨118, _⟩ => ⟨S100000x1, .f32⟩
  | .hbm, ⟨119, _⟩ => ⟨S_, .f32⟩
  | .hbm, ⟨120, _⟩ => ⟨S2048x1, .f32⟩
  | .hbm, ⟨121, _⟩ => ⟨S100000x1, .i32⟩
  | .hbm, ⟨122, _⟩ => ⟨S2048x1, .f32⟩
  | .hbm, ⟨123, _⟩ => ⟨S_, .f32⟩
  | .hbm, ⟨124, _⟩ => ⟨S2048x1, .f32⟩
  | .hbm, ⟨125, _⟩ => ⟨S2048x1, .f32⟩
  | .hbm, ⟨126, _⟩ => ⟨S2048x128, .f32⟩
  | .hbm, ⟨127, _⟩ => ⟨S2048x128, .f32⟩
  | _, _ => ⟨S100000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_cst : Ref sig .tc := ⟨.hbm, 91, rfl⟩
abbrev main_call2_v0 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_16 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x26_S26x128_S100000x128_1_0_0_1_n_n_wf : DotDims.WF S100000x26 S26x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048x1_S100000x1_S100000x1_1_0_0_1_wf : ScatterDims.WF S2048x1 S100000x1 S100000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x26_S26x128_S100000x128_1_0_0_1_n_n : DotDims S100000x26 S26x128 S100000x128 where
  lhsContracting := [1]
  rhsContracting := [0]
  lhsNonContracting := [0]
  rhsNonContracting := [1]
  lhsBatch := []
  rhsBatch := []
  wf := dot_S100000x26_S26x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048x1_S100000x1_S100000x1_1_0_0_1 : ScatterDims S2048x1 S100000x1 S100000x1 where
  updateWindowDims := [1]
  insertedWindowDims := [0]
  scatterDimsToOperandDims := [0]
  indexVectorDim := 1
  wf := scatter_S2048x1_S100000x1_S100000x1_1_0_0_1_wf

class Facts : Prop extends Facts₀ where

variable [Facts]
-- ==== Proof.Spec.lean ====
/-
  The whole-array functions the six kernel regions compute, at the ideal values, index by index.

  A node table has 100000 rows; a feature row has 128 columns. The per-node scale `d` is kept as a column
  [100000, 1] and the bias as a row [1, 128].

  * `GLin h W d` — the linear-and-scale stage: entry (n, j) is (Σ_k h(n, k) · W(k, j)) · d(n).
  * `GPost relu a d b` — the scale-bias stage: entry (n, j) is a(n, j) · d(n) + b(j), then its maximum with zero
    when `relu` is set.
-/
import Idealize.ShloMosaic.PureOps.Ideal
import Idealize.ShloMosaic.Lib.StableHlo.Predicate

noncomputable section

open scoped BigOperators

namespace Cert.Gcn

open Idealize.ShloMosaic Idealize.ShloMosaic.StableHlo.Predicate

/-- The linear-and-scale stage over the whole node table: (Σ_k h(n, k) · W(k, j)) · d(n). -/
def GLin {K : Nat} (h : FVec Ideal ⟨2, ![100000, K]⟩ .f32) (W : FVec Ideal ⟨2, ![K, 128]⟩ .f32)
    (d : FVec Ideal ⟨2, ![100000, 1]⟩ .f32) : FVec Ideal ⟨2, ![100000, 128]⟩ .f32 :=
  fun i => (∑ k : Fin K, h (ij (i 0) k) * W (ij k (i 1))) * d (ixP (i 0))

/-- The scale-bias stage over the whole node table: a(n, j) · d(n) + b(j), clipped below at zero when `relu`. -/
def GPost (relu : Bool) (a : FVec Ideal ⟨2, ![100000, 128]⟩ .f32) (d : FVec Ideal ⟨2, ![100000, 1]⟩ .f32)
    (b : FVec Ideal ⟨2, ![1, 128]⟩ .f32) : FVec Ideal ⟨2, ![100000, 128]⟩ .f32 :=
  fun i => if relu then max (a i * d (ixP (i 0)) + b (i1q (i 1))) 0 else a i * d (ixP (i 0)) + b (i1q (i 1))

theorem GLin_apply {K : Nat} (h : FVec Ideal ⟨2, ![100000, K]⟩ .f32) (W : FVec Ideal ⟨2, ![K, 128]⟩ .f32)
    (d : FVec Ideal ⟨2, ![100000, 1]⟩ .f32) (p : Fin 100000) (q : Fin 128) :
    GLin h W d (ij p q) = (∑ k : Fin K, h (ij p k) * W (ij k q)) * d (ixP p) := rfl

theorem GPost_apply (relu : Bool) (a : FVec Ideal ⟨2, ![100000, 128]⟩ .f32) (d : FVec Ideal ⟨2, ![100000, 1]⟩ .f32)
    (b : FVec Ideal ⟨2, ![1, 128]⟩ .f32) (p : Fin 100000) (q : Fin 128) :
    GPost relu a d b (ij p q)
      = if relu then max (a (ij p q) * d (ixP p) + b (i1q q)) 0 else a (ij p q) * d (ixP p) + b (i1q q) := rfl

end Cert.Gcn

end
-- ==== Proof.SpecOps.lean ====
/-
  The two programs' host computations, named once, at the ideal values.

  Both programs build the same edge lists (the given edges followed by one self loop per node), the same
  in-degree `deg` (a count of destination positions), the same per-node scale d = deg^(-1/2) where deg > 0 and 0
  elsewhere, and end with the same mean pool over the graph ids. They differ only in how a layer aggregates:

  * kernel side, `layerK`:  scale rows by d, gather source rows, add them up per destination, then scale by d
    again, add the bias (and clip at zero);
  * reference side, `layerR`: multiply, gather source rows, scale each message by d(src) · d(dst), add them up
    per destination, add the bias (and clip at zero).
-/
import proofs.«139671_j85933705658442_1_alg».proof.Proof.Spec
import Idealize.ShloMosaic.PureOps.Contract

noncomputable section

open scoped BigOperators

namespace Cert.Gcn

open Idealize.ShloMosaic

abbrev S_ : Shape := ⟨0, ![]⟩
abbrev S128 : Shape := ⟨1, ![128]⟩
abbrev S1x128 : Shape := ⟨2, ![1, 128]⟩
abbrev S26x128 : Shape := ⟨2, ![26, 128]⟩
abbrev S128x128 : Shape := ⟨2, ![128, 128]⟩
abbrev S100000 : Shape := ⟨1, ![100000]⟩
abbrev S100000x1 : Shape := ⟨2, ![100000, 1]⟩
abbrev S100000x26 : Shape := ⟨2, ![100000, 26]⟩
abbrev S100000x128 : Shape := ⟨2, ![100000, 128]⟩
abbrev S2x1600000 : Shape := ⟨2, ![2, 1600000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩
abbrev S2048x128 : Shape := ⟨2, ![2048, 128]⟩
abbrev S2048x1 : Shape := ⟨2, ![2048, 1]⟩

/-! ## The dimension numbers -/

/-- Gather of whole rows of a [100000, 128] table at a column of 1700000 positions. -/
def gd2 : GatherDims S100000x128 S1700000x1 S1700000x128 where
  offsetDims := [1]
  collapsedSliceDims := [0]
  operandBatchingDims := []
  startIndicesBatchingDims := []
  startIndexMap := [0]
  indexVectorDim := 1
  sliceSizes := ![1, 128]

/-- Gather of entries of a [100000] vector at a column of 1700000 positions. -/
def gd1 : GatherDims S100000 S1700000x1 S1700000 where
  offsetDims := []
  collapsedSliceDims := [0]
  operandBatchingDims := []
  startIndicesBatchingDims := []
  startIndexMap := [0]
  indexVectorDim := 1
  sliceSizes := ![1]

/-- Scatter of 1700000 rows into a [100000, 128] table. -/
def sd2 : ScatterDims S100000x128 S1700000x1 S1700000x128 where
  updateWindowDims := [1]
  insertedWindowDims := [0]
  scatterDimsToOperandDims := [0]
  indexVectorDim := 1

/-- Scatter of 1700000 entries into a [100000] vector. -/
def sd1 : ScatterDims S100000 S1700000x1 S1700000 where
  updateWindowDims := []
  insertedWindowDims := [0]
  scatterDimsToOperandDims := [0]
  indexVectorDim := 1

/-- Scatter of 100000 rows into a [2048, 128] table. -/
def sdp : ScatterDims S2048x128 S100000x1 S100000x128 where
  updateWindowDims := [1]
  insertedWindowDims := [0]
  scatterDimsToOperandDims := [0]
  indexVectorDim := 1

/-- Scatter of 100000 one-entry rows into a [2048, 1] column. -/
def sdc : ScatterDims S2048x1 S100000x1 S100000x1 where
  updateWindowDims := [1]
  insertedWindowDims := [0]
  scatterDimsToOperandDims := [0]
  indexVectorDim := 1

/-! ## The shared prefix: edge lists, degree, scale -/

/-- Row `r` of the edge table followed by the self loops 0, 1, …, 99999. -/
def edgeRow (r : Nat) (hs : S2x1600000.Slices ![r, 0] S1x1600000) (ei : IVec S2x1600000 32) : IVec S1700000 32 :=
  concatenate S1700000 0 [⟨S1600000, shapeCast S1600000 (extractStridedSlice S1x1600000 ![r, 0] ei hs)
      (by decide : S1x1600000.ShapeCasts S1600000)⟩,
    ⟨S100000, iotaInDim S100000 32 0⟩] (by decide : Shape.Concatenates [S1600000, S100000] S1700000 0)

/-- The source positions. -/
def srcV (ei : IVec S2x1600000 32) : IVec S1700000 32 := edgeRow 0 (by decide) ei
/-- The destination positions. -/
def dstV (ei : IVec S2x1600000 32) : IVec S1700000 32 := edgeRow 1 (by decide) ei

/-- A list of positions as the column of start indices a gather or a scatter reads. -/
def colI (v : IVec S1700000 32) : IVec S1700000x1 32 := broadcastInDim S1700000x1 ![0] (by decide) v

/-- Python's index normalisation: a negative position counts from the end. -/
def normI (v : IVec S1700000 32) : IVec S1700000 32 :=
  select (cmpi .slt v (broadcastInDim S1700000 ![] (by decide) (constantI S_ 32 0#32)))
    (addi v (broadcastInDim S1700000 ![] (by decide) (constantI S_ 32 100000#32))) v

/-- The in-degree: the count of the destination positions that land on each node. -/
def degV (dst : IVec S1700000 32) : FVec Ideal S100000 .f32 :=
  Host.scatterAdd sd1 (broadcastInDim S100000 ![] (by decide) (constant S_ .f32 0x00000000#32)) (colI dst)
    (broadcastInDim S1700000 ![] (by decide) (constant S_ .f32 0x3F800000#32))

/-- The per-node scale: deg^(-1/2) where deg > 0, zero elsewhere. -/
def dinvV (dst : IVec S1700000 32) : FVec Ideal S100000 .f32 :=
  select (cmpf .ogt (degV dst) (broadcastInDim S100000 ![] (by decide) (constant S_ .f32 0x00000000#32)))
    (Host.rsqrt (degV dst)) (broadcastInDim S100000 ![] (by decide) (id (constant S_ .f32 0x00000000#32)))

/-- The scale as a column. -/
def dcolV (dst : IVec S1700000 32) : FVec Ideal S100000x1 .f32 := shapeCast S100000x1 (dinvV dst) (by decide)

/-- The zero table an aggregation starts from. -/
def zeroT : FVec Ideal S100000x128 .f32 := broadcastInDim S100000x128 ![] (by decide) (constant S_ .f32 0x00000000#32)

/-! ## One layer, two ways -/

/-- Kernel side: the rows gathered at the sources, added up per destination. -/
def aggK (src dst : IVec S1700000 32) (hs : FVec Ideal S100000x128 .f32) : FVec Ideal S100000x128 .f32 :=
  Host.scatterAdd sd2 zeroT (colI dst) (Host.gather gd2 hs (colI (normI src)))

/-- Kernel side: one layer. -/
def layerK (relu : Bool) {K : Nat} (src dst : IVec S1700000 32) (h : FVec Ideal ⟨2, ![100000, K]⟩ .f32)
    (W : FVec Ideal ⟨2, ![K, 128]⟩ .f32) (b : FVec Ideal S128 .f32) : FVec Ideal S100000x128 .f32 :=
  GPost relu (aggK src dst (GLin h W (dcolV dst))) (dcolV dst) (shapeCast S1x128 b (by decide))

/-- Reference side: the per-edge weight d(src) · d(dst), as a column. -/
def normV (src dst : IVec S1700000 32) : FVec Ideal S1700000x1 .f32 :=
  broadcastInDim S1700000x1 ![0] (by decide)
    (mulf (Host.gather gd1 (dinvV dst) (colI (normI src))) (Host.gather gd1 (dinvV dst) (colI (normI dst))))

/-- Reference side: the weighted rows gathered at the sources, added up per destination. -/
def aggR (src dst : IVec S1700000 32) (hw : FVec Ideal S100000x128 .f32) : FVec Ideal S100000x128 .f32 :=
  Host.scatterAdd sd2 zeroT (colI dst)
    (mulf (Host.gather gd2 hw (colI (normI src))) (broadcastInDim S1700000x128 ![0, 1] (by decide) (normV src dst)))

/-- Reference side: the bias row laid under every node. -/
def biasT (b : FVec Ideal S128 .f32) : FVec Ideal S100000x128 .f32 :=
  broadcastInDim S100000x128 ![0, 1] (by decide) (broadcastInDim S1x128 ![1] (by decide) b)

/-- Reference side: the clip at zero. -/
def reluT (x : FVec Ideal S100000x128 .f32) : FVec Ideal S100000x128 .f32 :=
  maximumf x (broadcastInDim S100000x128 ![] (by decide) (constant S_ .f32 0x00000000#32))

/-- Reference side: one layer. -/
def layerR (relu : Bool) {K : Nat} (src dst : IVec S1700000 32) (h : FVec Ideal ⟨2, ![100000, K]⟩ .f32)
    (W : FVec Ideal ⟨2, ![K, 128]⟩ .f32) (b : FVec Ideal S128 .f32) : FVec Ideal S100000x128 .f32 :=
  if relu then reluT (addf (aggR src dst (Host.dotGeneral (DotDims.plain 100000 K 128) none h W)) (biasT b))
  else addf (aggR src dst (Host.dotGeneral (DotDims.plain 100000 K 128) none h W)) (biasT b)

/-! ## The shared suffix: the mean pool -/

/-- Per graph id: the sum of the node rows over the count of nodes (at least one). -/
def poolV (bt : IVec S100000 32) (h : FVec Ideal S100000x128 .f32) : FVec Ideal S2048x128 .f32 :=
  Host.divf
    (Host.scatterAdd sdp (broadcastInDim S2048x128 ![] (by decide) (constant S_ .f32 0x00000000#32))
      (broadcastInDim S100000x1 ![0] (by decide) bt) h)
    (broadcastInDim S2048x128 ![0, 1] (by decide)
      (maximumf
        (Host.scatterAdd sdc (broadcastInDim S2048x1 ![] (by decide) (constant S_ .f32 0x00000000#32))
          (broadcastInDim S100000x1 ![0] (by decide) bt)
          (broadcastInDim S100000x1 ![] (by decide) (constant S_ .f32 0x3F800000#32)))
        (broadcastInDim S2048x1 ![] (by decide) (constant S_ .f32 0x3F800000#32))))

/-! ## The two programs' results -/

/-- The kernel program's result: the mean pool of three kernel-side layers. -/
def resultK (x : FVec Ideal S100000x26 .f32) (ei : IVec S2x1600000 32) (bt : IVec S100000 32)
    (W1 : FVec Ideal S26x128 .f32) (b1 : FVec Ideal S128 .f32) (W2 : FVec Ideal S128x128 .f32) (b2 : FVec Ideal S128 .f32)
    (W3 : FVec Ideal S128x128 .f32) (b3 : FVec Ideal S128 .f32) : FVec Ideal S2048x128 .f32 :=
  poolV bt (layerK false (srcV ei) (dstV ei)
    (layerK true (srcV ei) (dstV ei) (layerK true (srcV ei) (dstV ei) x W1 b1) W2 b2) W3 b3)

/-- The reference's result: the mean pool of three reference-side layers. -/
def resultR (x : FVec Ideal S100000x26 .f32) (ei : IVec S2x1600000 32) (bt : IVec S100000 32)
    (W1 : FVec Ideal S26x128 .f32) (b1 : FVec Ideal S128 .f32) (W2 : FVec Ideal S128x128 .f32) (b2 : FVec Ideal S128 .f32)
    (W3 : FVec Ideal S128x128 .f32) (b3 : FVec Ideal S128 .f32) : FVec Ideal S2048x128 .f32 :=
  poolV bt (layerR false (srcV ei) (dstV ei)
    (layerR true (srcV ei) (dstV ei) (layerR true (srcV ei) (dstV ei) x W1 b1) W2 b2) W3 b3)

end Cert.Gcn

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.RegionLin.lean ====
/-
  The three linear-and-scale regions, each read as ONE function of the arrays it is entered at.

  A region walks twenty row tiles of 5000 rows. At tile t the body multiplies rows [5000t, 5000t + 5000) of the
  node table by the whole weight matrix and scales row r by the per-node scale d(r); the tile it writes back is
  the same rows of `GLin h W d`. The twenty tiles cover the table, so after the region the output array IS
  `GLin h W d` of the arrays the region found.
-/
import proofs.«139671_j85933705658442_1_alg».proof.Proof.Gen.KernelIdeal.Frame
import proofs.«139671_j85933705658442_1_alg».proof.Proof.Spec
import proofs.«139671_j85933705658442_1_alg».proof.Proof.LibMatmulPlain
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value
import Idealize.ShloMosaic.Lib.StableHlo.Predicate

set_option maxRecDepth 16384

noncomputable section

open scoped BigOperators

namespace Cert.KernelIdeal.GcnLin

open Idealize.ShloMosaic Idealize.ShloMosaic.TcCoe Idealize.ShloMosaic.ValueIdx Idealize.ShloMosaic.StableHlo.Predicate
open Idealize.ShloMosaic.Pipeline (Dat Cfg Window)
open Cert.KernelIdeal Cert.KernelIdeal.Gen Cert.Gcn Cert.LibMatmulPlain

/-! ## Facts every region uses -/

/-- The zero offsets of a whole-buffer access, however they are spelt. -/
theorem zero_off : (![0, 0] : Fin 2 → Nat) = fun _ => 0 := funext fun a => by fin_cases a <;> rfl

/-- A column [m, 1] broadcast across n columns, read at (a, b), is the column at row a. -/
theorem colBroadcast_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ixP a) := by
  refine broadcastTo_apply x h (ix2 a b) (ixP a) fun ax => ?_
  match ax with
  | ⟨0, _⟩ =>
    show a.val = if m = 1 then 0 else a.val
    split
    · have := a.isLt; omega
    · rfl
  | ⟨1, _⟩ => rfl

/- The buffer contents a region is entered at: any. -/
variable (V : (c : Dev nD) → (b : Ref sig .tc) → Buf (Elt Ideal) ((c : Thread nD τ).loc b))

/-! ## Region 0: 26 input features -/

/-- The body's arithmetic at row p, column q of a tile: the row of the node block against the column of the weights,
    scaled by the node's scale. -/
theorem pay0_apply (x0 : FVec Ideal S5000x26 .f32) (x1 : FVec Ideal S26x128 .f32) (x2 : FVec Ideal S5000x1 .f32)
    (p : Fin 5000) (q : Fin 128) :
    k0_pay1 (F := Ideal) x0 x1 x2 (ix2 p q) = (∑ k : Fin 26, x0 (ix2 p k) * x1 (ix2 k q)) * x2 (ixP p) := by
  unfold k0_pay1
  rw [mulf_apply, shapeCast_self, colBroadcast_apply]
  congr 1
  exact matmul_plain_zero_apply (m := 5000) (k := 26) (n := 128) none _ _ p q

/-- One tile against the whole table. If the node block is rows [5000n, 5000n + 5000) of the table, the weight block is
    the weight matrix and the scale block is the same rows of the scale column, then the body's result at (p, q) of
    the tile is the linear-and-scale stage at row 5000n + p, column q. -/
theorem tile0_at (h : FVec Ideal S100000x26 .f32) (W : FVec Ideal S26x128 .f32) (d : FVec Ideal S100000x1 .f32)
    (x0 : FVec Ideal S5000x26 .f32) (x1 : FVec Ideal S26x128 .f32) (x2 : FVec Ideal S5000x1 .f32)
    (n : Nat) (hn : n < 20)
    (e0 : ∀ (p : Fin 5000) (k : Fin 26), x0 (ix2 p k) = h (ij ⟨n * 5000 + p.val, by omega⟩ k))
    (e1 : ∀ (k : Fin 26) (q : Fin 128), x1 (ix2 k q) = W (ij k q))
    (e2 : ∀ p : Fin 5000, x2 (ixP p) = d (ixP ⟨n * 5000 + p.val, by omega⟩))
    (j : S5000x128.Idx) (i : S100000x128.Idx) (hi0 : (i 0).val = n * 5000 + (j 0).val) (hi1 : (i 1).val = (j 1).val) :
    k0_pay1 (F := Ideal) x0 x1 x2 j = GLin (K := 26) h W d i := by
  obtain ⟨p, q, rfl⟩ : ∃ (p : Fin 5000) (q : Fin 128), j = ix2 p q := ⟨j 0, j 1, eq_ix2 j⟩
  have hlt : n * 5000 + p.val < 100000 := by have := p.isLt; omega
  obtain ⟨a, b, rfl⟩ : ∃ (a : Fin 100000) (b : Fin 128), i = ij a b := ⟨i 0, i 1, (ij_eta i).symm⟩
  obtain rfl : a = ⟨n * 5000 + p.val, hlt⟩ := Fin.ext hi0
  obtain rfl : b = q := Fin.ext hi1
  rw [pay0_apply, GLin_apply, e2]
  congr 1
  exact Finset.sum_congr rfl fun k _ => by rw [e0, e1]

/-- The printed index maps over the twenty tiles: the node block, the scale block and the output block are tile t's
    rows; the weight block is the whole matrix. -/
theorem tile_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What tile t writes back is tile t of the linear-and-scale stage of the arrays the region found. -/
theorem flushed0_eq (c : Dev nD) (t : Fin cfg0.N) :
    (dat0 (F := Ideal) V c).flushed 3 t
      = ((cfg0.win 3).blk t).view.read (Elt Ideal) (GLin (K := 26) (V c main_arg0) (V c main_arg3) (V c main_v15)) := by
  show (cfg0.win 3).cut (grid0.coords t) ((dat0 V c).after 3 t) = _
  rw [after0_3]
  unfold out0_3
  rw [View.canon_unit_zero zero_off]
  simp only [View.ld_unit_zero (S := S5000x26) zero_off, View.ld_unit_zero (S := S26x128) zero_off,
    View.ld_unit_zero (S := S5000x1) zero_off]
  obtain ⟨a0, a1, b0, b1, d0, d1, o0, o1⟩ := tile_idx0 t
  have ht : t.val < 20 := lt_of_lt_of_eq t.isLt N_0
  funext j
  refine tile0_at (V c main_arg0) (V c main_arg3) (V c main_v15) (iblk0 V c 0 t) (iblk0 V c 1 t) (iblk0 V c 2 t)
    t.val ht (fun p k => ?_) (fun k q => ?_) (fun p => ?_) j (((cfg0.win 3).blk t).view.emb j) ?_ ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 26 + 1 * k.val = k.val; omega
  · show V c main_arg3 (((cfg0.win 1).blk t).view.emb (ix2 k q)) = V c main_arg3 _
    refine congrArg _ (funext fun a => Fin.ext ?_)
    match a with
    | ⟨0, _⟩ => show win0_1.index t (0 : Fin 2) * 26 + 1 * k.val = k.val; omega
    | ⟨1, _⟩ => show win0_1.index t (1 : Fin 2) * 128 + 1 * q.val = q.val; omega
  · show V c main_v15 (((cfg0.win 2).blk t).view.emb (ixP p)) = V c main_v15 _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · show win0_3.index t (0 : Fin 2) * 5000 + 1 * (j 0).val = t.val * 5000 + (j 0).val; omega
  · show win0_3.index t (1 : Fin 2) * 128 + 1 * (j 1).val = (j 1).val; omega

/-- An index of the table is in tile t's block iff each coordinate is in the block's range on its axis. -/
theorem mem_tile0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The twenty tiles cover the table: row r is in tile r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, o0, o1⟩ := tile_idx0 t
  have tv : t.val = (i 0).val / 5000 := rfl
  refine ⟨t, flush0_3 t, ?_⟩
  rw [mem_tile0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- Region 0 (26 input features): the output array after the region. -/
theorem final0 (c : Dev nD) :
    (dat0 (F := Ideal) V c).arrAt 3 cfg0.N = GLin (K := 26) (V c main_arg0) (V c main_arg3) (V c main_v15) :=
  (dat0 (F := Ideal) V c).arrAt_eq_of_cover 3 (GLin (K := 26) (V c main_arg0) (V c main_arg3) (V c main_v15))
    (fun t _ => flushed0_eq V c t) cover0

/-! ## Region 2: 128 input features -/

/-- The body's arithmetic at row p, column q of a tile: the row of the node block against the column of the weights,
    scaled by the node's scale. -/
theorem pay2_apply (x0 : FVec Ideal S5000x128 .f32) (x1 : FVec Ideal S128x128 .f32) (x2 : FVec Ideal S5000x1 .f32)
    (p : Fin 5000) (q : Fin 128) :
    k2_pay1 (F := Ideal) x0 x1 x2 (ix2 p q) = (∑ k : Fin 128, x0 (ix2 p k) * x1 (ix2 k q)) * x2 (ixP p) := by
  unfold k2_pay1
  rw [mulf_apply, shapeCast_self, shapeCast_self, colBroadcast_apply]
  congr 1
  exact matmul_plain_zero_apply (m := 5000) (k := 128) (n := 128) none _ _ p q

/-- One tile against the whole table. If the node block is rows [5000n, 5000n + 5000) of the table, the weight block is
    the weight matrix and the scale block is the same rows of the scale column, then the body's result at (p, q) of
    the tile is the linear-and-scale stage at row 5000n + p, column q. -/
theorem tile2_at (h : FVec Ideal S100000x128 .f32) (W : FVec Ideal S128x128 .f32) (d : FVec Ideal S100000x1 .f32)
    (x0 : FVec Ideal S5000x128 .f32) (x1 : FVec Ideal S128x128 .f32) (x2 : FVec Ideal S5000x1 .f32)
    (n : Nat) (hn : n < 20)
    (e0 : ∀ (p : Fin 5000) (k : Fin 128), x0 (ix2 p k) = h (ij ⟨n * 5000 + p.val, by omega⟩ k))
    (e1 : ∀ (k : Fin 128) (q : Fin 128), x1 (ix2 k q) = W (ij k q))
    (e2 : ∀ p : Fin 5000, x2 (ixP p) = d (ixP ⟨n * 5000 + p.val, by omega⟩))
    (j : S5000x128.Idx) (i : S100000x128.Idx) (hi0 : (i 0).val = n * 5000 + (j 0).val) (hi1 : (i 1).val = (j 1).val) :
    k2_pay1 (F := Ideal) x0 x1 x2 j = GLin (K := 128) h W d i := by
  obtain ⟨p, q, rfl⟩ : ∃ (p : Fin 5000) (q : Fin 128), j = ix2 p q := ⟨j 0, j 1, eq_ix2 j⟩
  have hlt : n * 5000 + p.val < 100000 := by have := p.isLt; omega
  obtain ⟨a, b, rfl⟩ : ∃ (a : Fin 100000) (b : Fin 128), i = ij a b := ⟨i 0, i 1, (ij_eta i).symm⟩
  obtain rfl : a = ⟨n * 5000 + p.val, hlt⟩ := Fin.ext hi0
  obtain rfl : b = q := Fin.ext hi1
  rw [pay2_apply, GLin_apply, e2]
  congr 1
  exact Finset.sum_congr rfl fun k _ => by rw [e0, e1]

/-- The printed index maps over the twenty tiles: the node block, the scale block and the output block are tile t's
    rows; the weight block is the whole matrix. -/
theorem tile_idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What tile t writes back is tile t of the linear-and-scale stage of the arrays the region found. -/
theorem flushed2_eq (c : Dev nD) (t : Fin cfg2.N) :
    (dat2 (F := Ideal) V c).flushed 3 t
      = ((cfg2.win 3).blk t).view.read (Elt Ideal) (GLin (K := 128) (V c main_v28) (V c main_arg5) (V c main_v15)) := by
  show (cfg2.win 3).cut (grid2.coords t) ((dat2 V c).after 3 t) = _
  rw [after2_3]
  unfold out2_3
  rw [View.canon_unit_zero zero_off]
  simp only [View.ld_unit_zero (S := S5000x128) zero_off, View.ld_unit_zero (S := S128x128) zero_off,
    View.ld_unit_zero (S := S5000x1) zero_off]
  obtain ⟨a0, a1, b0, b1, d0, d1, o0, o1⟩ := tile_idx2 t
  have ht : t.val < 20 := lt_of_lt_of_eq t.isLt N_2
  funext j
  refine tile2_at (V c main_v28) (V c main_arg5) (V c main_v15) (iblk2 V c 0 t) (iblk2 V c 1 t) (iblk2 V c 2 t)
    t.val ht (fun p k => ?_) (fun k q => ?_) (fun p => ?_) j (((cfg2.win 3).blk t).view.emb j) ?_ ?_
  · show V c main_v28 (((cfg2.win 0).blk t).view.emb (ix2 p k)) = V c main_v28 _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg5 (((cfg2.win 1).blk t).view.emb (ix2 k q)) = V c main_arg5 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show V c main_v15 (((cfg2.win 2).blk t).view.emb (ixP p)) = V c main_v15 _
    refine congrArg _ (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · show win2_3.index t (0 : Fin 2) * 5000 + 1 * (j 0).val = t.val * 5000 + (j 0).val; omega
  · show win2_3.index t (1 : Fin 2) * 128 + 1 * (j 1).val = (j 1).val; omega

/-- An index of the table is in tile t's block iff each coordinate is in the block's range on its axis. -/
theorem mem_tile2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v29).slice (win2_3.rect t)).set ↔ _
  rw [View.set_slice_whole, Rect.mem_set_unit]
  exact Iff.rfl

/-- The twenty tiles cover the table: row r is in tile r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, o0, o1⟩ := tile_idx2 t
  have tv : t.val = (i 0).val / 5000 := rfl
  refine ⟨t, flush2_3 t, ?_⟩
  rw [mem_tile2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- Region 2 (128 input features): the output array after the region. -/
theorem final2 (c : Dev nD) :
    (dat2 (F := Ideal) V c).arrAt 3 cfg2.N = GLin (K := 128) (V c main_v28) (V c main_arg5) (V c main_v15) :=
  (dat2 (F := Ideal) V c).arrAt_eq_of_cover 3 (GLin (K := 128) (V c main_v28) (V c main_arg5) (V c main_v15))
    (fun t _ => flushed2_eq V c t) cover2

/-! ## Region 4: 128 input features -/

/-- The body's arithmetic at row p, column q of a tile: the row of the node block against the column of the weights,
    scaled by the node's scale. -/
theorem pay4_apply (x0 : FVec Ideal S5000x128 .f32) (x1 : FVec Ideal S128x128 .f32) (x2 : FVec Ideal S5000x1 .f32)
    (p : Fin 5000) (q : Fin 128) :
    k4_pay1 (F := Ideal) x0 x1 x2 (ix2 p q) = (∑ k : Fin 128, x0 (ix2 p k) * x1 (ix2 k q)) * x2 (ixP p) := by
  unfold k4_pay1
  rw [mulf_apply, shapeCast_self, shapeCast_self, colBroadcast_apply]
  congr 1
  exact matmul_plain_zero_apply (m := 5000) (k := 128) (n := 128) none _ _ p q

/-- One tile against the whole table. If the node block is rows [5000n, 5000n + 5000) of the table, the weight block is
    the weight matrix and the scale block is the same rows of the scale column, then the body's result at (p, q) of
    the tile is the linear-and-scale stage at row 5000n + p, column q. -/
theorem tile4_at (h : FVec Ideal S100000x128 .f32) (W : FVec Ideal S128x128 .f32) (d : FVec Ideal S100000x1 .f32)
    (x0 : FVec Ideal S5000x128 .f32) (x1 : FVec Ideal S128x128 .f32) (x2 : FVec Ideal S5000x1 .f32)
    (n : Nat) (hn : n < 20)
    (e0 : ∀ (p : Fin 5000) (k : Fin 128), x0 (ix2 p k) = h (ij ⟨n * 5000 + p.val, by omega⟩ k))
    (e1 : ∀ (k : Fin 128) (q : Fin 128), x1 (ix2 k q) = W (ij k q))
    (e2 : ∀ p : Fin 5000, x2 (ixP p) = d (ixP ⟨n * 5000 + p.val, by omega⟩))
    (j : S5000x128.Idx) (i : S100000x128.Idx) (hi0 : (i 0).val = n * 5000 + (j 0).val) (hi1 : (i 1).val = (j 1).val) :
    k4_pay1 (F := Ideal) x0 x1 x2 j = GLin (K := 128) h W d i := by
  obtain ⟨p, q, rfl⟩ : ∃ (p : Fin 5000) (q : Fin 128), j = ix2 p q := ⟨j 0, j 1, eq_ix2 j⟩
  have hlt : n * 5000 + p.val < 100000 := by have := p.isLt; omega
  obtain ⟨a, b, rfl⟩ : ∃ (a : Fin 100000) (b : Fin 128), i = ij a b := ⟨i 0, i 1, (ij_eta i).symm⟩
  obtain rfl : a = ⟨n * 5000 + p.val, hlt⟩ := Fin.ext hi0
  obtain rfl : b = q := Fin.ext hi1
  rw [pay4_apply, GLin_apply, e2]
  congr 1
  exact Finset.sum_congr rfl fun k _ => by rw [e0, e1]

/-- The printed index maps over the twenty tiles: the node block, the scale block and the output block are tile t's
    rows; the weight block is the whole matrix. -/
theorem tile_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What tile t writes back is tile t of the linear-and-scale stage of the arrays the region found. -/
theorem flushed4_eq (c : Dev nD) (t : Fin cfg4.N) :
    (dat4 (F := Ideal) V c).flushed 3 t
      = ((cfg4.win 3).blk t).view.read (Elt Ideal) (GLin (K := 128) (V c main_v41) (V c main_arg7) (V c main_v15)) := by
  show (cfg4.win 3).cut (grid4.coords t) ((dat4 V c).after 3 t) = _
  rw [after4_3]
  unfold out4_3
  rw [View.canon_unit_zero zero_off]
  simp only [View.ld_unit_zero (S := S5000x128) zero_off, View.ld_unit_zero (S := S128x128) zero_off,
    View.ld_unit_zero (S := S5000x1) zero_off]
  obtain ⟨a0, a1, b0, b1, d0, d1, o0, o1⟩ := tile_idx4 t
  have ht : t.val < 20 := lt_of_lt_of_eq t.isLt N_4
  funext j
  refine tile4_at (V c main_v41) (V c main_arg7) (V c main_v15) (iblk4 V c 0 t) (iblk4 V c 1 t) (iblk4 V c 2 t)
    t.val ht (fun p k => ?_) (fun k q => ?_) (fun p => ?_) j (((cfg4.win 3).blk t).view.emb j) ?_ ?_
  · show V c main_v41 (((cfg4.win 0).blk t).view.emb (ix2 p k)) = V c main_v41 _
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · show V c main_arg7 (((cfg4.win 1).blk t).view.emb (ix2 k q)) = V c main_arg7 _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · show V c main_v15 (((cfg4.win 2).blk t).view.emb (ixP p)) = V c main_v15 _
    refine congrArg _ (funext fun a => Fin.ext ?_)
    match a with
    | ⟨0, _⟩ => show win4_2.index t (0 : Fin 2) * 5000 + 1 * p.val = t.val * 5000 + p.val; omega
    | ⟨1, _⟩ => show win4_2.index t (1 : Fin 2) * 1 + 1 * 0 = 0; omega
  · show win4_3.index t (0 : Fin 2) * 5000 + 1 * (j 0).val = t.val * 5000 + (j 0).val; omega
  · show win4_3.index t (1 : Fin 2) * 128 + 1 * (j 1).val = (j 1).val; omega

/-- An index of the table is in tile t's block iff each coordinate is in the block's range on its axis. -/
theorem mem_tile4 (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v42).slice (win4_3.rect t)).set ↔ _
  rw [View.set_slice_whole, Rect.mem_set_unit]
  exact Iff.rfl

/-- The twenty tiles cover the table: row r is in tile r / 5000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, o0, o1⟩ := tile_idx4 t
  have tv : t.val = (i 0).val / 5000 := rfl
  refine ⟨t, flush4_3 t, ?_⟩
  rw [mem_tile4]
  intro a
  match a with
  | ⟨0, _⟩ =>
    show win4_3.index t (0 : Fin 2) * 5000 ≤ (i 0).val ∧ (i 0).val < win4_3.index t (0 : Fin 2) * 5000 + 5000
    omega
  | ⟨1, _⟩ =>
    show win4_3.index t (1 : Fin 2) * 128 ≤ (i 1).val ∧ (i 1).val < win4_3.index t (1 : Fin 2) * 128 + 128
    omega

/-- Region 4 (128 input features): the output array after the region. -/
theorem final4 (c : Dev nD) :
    (dat4 (F := Ideal) V c).arrAt 3 cfg4.N = GLin (K := 128) (V c main_v41) (V c main_arg7) (V c main_v15) :=
  (dat4 (F := Ideal) V c).arrAt_eq_of_cover 3 (GLin (K := 128) (V c main_v41) (V c main_arg7) (V c main_v15))
    (fun t _ => flushed4_eq V c t) cover4

end Cert.KernelIdeal.GcnLin

end
-- ==== Proof.RegionPost.lean ====
/-
  The three scale-bias regions, each read as ONE function of the arrays it is entered at.

  A region walks twenty row tiles of 5000 rows. At tile t the body scales rows [5000t, 5000t + 5000) of the
  aggregated table by the per-node scale d(r), adds the bias row, and (in the first two of the three regions)
  takes the maximum with zero; the tile it writes back is the same rows of `GPost relu a d b`. The twenty
  tiles cover the table, so after the region the output array IS `GPost relu a d b` of the arrays the region found.
-/
import proofs.«139671_j85933705658442_1_alg».proof.Proof.Gen.KernelIdeal.Frame
import proofs.«139671_j85933705658442_1_alg».proof.Proof.Spec
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value
import Idealize.ShloMosaic.Lib.StableHlo.Predicate

set_option maxRecDepth 16384

noncomputable section

open scoped BigOperators

namespace Cert.KernelIdeal.GcnPost

open Idealize.ShloMosaic Idealize.ShloMosaic.TcCoe Idealize.ShloMosaic.ValueIdx Idealize.ShloMosaic.StableHlo.Predicate
open Idealize.ShloMosaic.Pipeline (Dat Cfg Window)
open Cert.KernelIdeal Cert.KernelIdeal.Gen Cert.Gcn

/- The buffer contents a region is entered at: any. -/
variable (V : (c : Dev nD) → (b : Ref sig .tc) → Buf (Elt Ideal) ((c : Thread nD τ).loc b))

/-- The zero block offsets, spelt as a function of the axis. -/
theorem zero_offsets : (![0, 0] : Fin 2 → Nat) = fun _ => 0 :=
  funext fun a => by match a with | ⟨0, _⟩ => rfl | ⟨1, _⟩ => rfl

/-! ## The tile's payload at a row and a column -/

/-- The per-node scale column [5000, 1] spread across the 128 feature columns reads, at (p, q), the column at row p. -/
theorem scale_column_spread_apply (x : FVec Ideal S5000x1 .f32) (h : S5000x1.Broadcasts S5000x128) (p : Fin 5000) (q : Fin 128) :
    broadcastTo S5000x128 x h (ij p q) = x (ixP p) := by
  refine broadcastTo_apply x h (ij p q) (ixP p) fun ax => ?_
  match ax with
  | ⟨0, _⟩ =>
    show p.val = if (5000 : Nat) = 1 then 0 else p.val
    rw [if_neg (by decide)]
  | ⟨1, _⟩ => rfl

/-- The bias row [1, 128] spread down the 5000 rows reads, at (p, q), the row at column q. -/
theorem bias_row_spread_apply (x : FVec Ideal S1x128 .f32) (h : S1x128.Broadcasts S5000x128) (p : Fin 5000) (q : Fin 128) :
    broadcastTo S5000x128 x h (ij p q) = x (i1q q) := by
  refine broadcastTo_apply x h (ij p q) (i1q q) fun ax => ?_
  match ax with
  | ⟨0, _⟩ => rfl
  | ⟨1, _⟩ =>
    show q.val = if (128 : Nat) = 1 then 0 else q.val
    rw [if_neg (by decide)]

/-- Region 1's payload at row p and column q of the tile: a(p, q) · d(p) + b(q), then its maximum with zero. -/
theorem scale_bias_clip1_apply (x0 : Vec Ideal S5000x128 .f32) (x1 : Vec Ideal S5000x1 .f32) (x2 : Vec Ideal S1x128 .f32)
    (p : Fin 5000) (q : Fin 128) :
    k1_pay1 x0 x1 x2 (ij p q) = max (x0 (ij p q) * x1 (ixP p) + x2 (i1q q)) 0 := by
  unfold k1_pay1
  simp only [shapeCast_self]
  rw [maximumf_apply, addf_apply, mulf_apply, broadcast_apply, scale_column_spread_apply, bias_row_spread_apply,
    Ideal.ofBits_def, Ideal.ofBits_zero_f32]

/-! ## Region 1: from the twenty tiles to the table -/

/-- The printed tile maps of region 1, decided once over the twenty tiles: the aggregated table, the scale column and the
    output sit at block (t, 0); the bias row stays at block (0, 0). -/
theorem tile_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT TILE t WRITES BACK is rows [5000t, 5000t + 5000) of `GPost true a d b` of the arrays the region found. -/
theorem tile_written1 (c : Dev nD) (t : Fin cfg1.N) :
    (dat1 (F := Ideal) V c).flushed 3 t
      = ((cfg1.win 3).blk t).view.read (Elt Ideal) (GPost true (V c main_v26) (V c main_v15) (V c main_v27)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := tile_maps1 t
  have hN : cfg1.N = 20 := N_1
  have htv : t.val < 20 := hN ▸ t.isLt
  funext j
  obtain ⟨p, q, rfl⟩ : ∃ (p : Fin 5000) (q : Fin 128), j = ij p q := ⟨j 0, j 1, (ij_eta j).symm⟩
  -- the row of the table that row p of tile t is
  have hr : t.val * 5000 + p.val < 100000 := by have := p.isLt; omega
  -- where each window's block puts its coordinate: block index × block size + 1 × the coordinate inside
  have hout : ((cfg1.win 3).blk t).view.emb (ij p q) = ij (⟨t.val * 5000 + p.val, hr⟩ : Fin 100000) q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 128 + 1 * q.val = q.val; rw [e31]; omega
  have htab : ((cfg1.win 0).blk t).view.emb (ij p q) = ij (⟨t.val * 5000 + p.val, hr⟩ : Fin 100000) q := by
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * q.val = q.val; rw [e01]; omega
  have hcol : ((cfg1.win 1).blk t).view.emb (ixP p) = ixP (⟨t.val * 5000 + p.val, hr⟩ : Fin 100000) := by
    funext a; apply Fin.ext
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  have hrow : ((cfg1.win 2).blk t).view.emb (i1q q) = i1q q := by
    funext a; apply Fin.ext
    match a with
    | ⟨0, _⟩ => show win1_2.index t (0 : Fin 2) * 1 + 1 * 0 = 0; rw [e20]
    | ⟨1, _⟩ => show win1_2.index t (1 : Fin 2) * 128 + 1 * q.val = q.val; rw [e21]; omega
  -- each input block, read where the output's rectangle says
  have rtab : iblk1 V c 0 t (ij p q) = V c main_v26 (ij (⟨t.val * 5000 + p.val, hr⟩ : Fin 100000) q) :=
    congrArg (V c main_v26) htab
  have rcol : iblk1 V c 1 t (ixP p) = V c main_v15 (ixP (⟨t.val * 5000 + p.val, hr⟩ : Fin 100000)) :=
    congrArg (V c main_v15) hcol
  have rrow : iblk1 V c 2 t (i1q q) = V c main_v27 (i1q q) :=
    congrArg (V c main_v27) hrow
  refine (scale_bias_clip1_apply (iblk1 V c 0 t) (iblk1 V c 1 t) (iblk1 V c 2 t) p q).trans ?_
  show _ = GPost true (V c main_v26) (V c main_v15) (V c main_v27) (((cfg1.win 3).blk t).view.emb (ij p q))
  rw [hout, GPost_apply, rtab, rcol, rrow]
  rfl

/-- An index of the table is in tile t's block iff each coordinate is in the block's range on its axis. -/
theorem mem_tile1 (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v28).slice (win1_3.rect t)).set ↔ _
  rw [View.set_slice_whole, Rect.mem_set_unit]
  exact Iff.rfl

/-- THE TWENTY TILES COVER THE TABLE: row r is in the block of tile r / 5000, which writes back. -/
theorem tiles_cover1 (i : S100000x128.Idx) :
    ∃ t : Fin cfg1.N, (cfg1.win 3).flush t = true ∧ i ∈ ((cfg1.win 3).blk t).view.set := by
  have hr : (i 0).val < 100000 := (i 0).isLt
  have hq : (i 1).val < 128 := (i 1).isLt
  have hlt : (i 0).val / 5000 < cfg1.N := by rw [show cfg1.N = 20 from N_1]; omega
  obtain ⟨t, ht⟩ : ∃ t : Fin cfg1.N, t.val = (i 0).val / 5000 := ⟨⟨(i 0).val / 5000, hlt⟩, rfl⟩
  obtain ⟨-, -, -, -, -, -, e30, e31⟩ := tile_maps1 t
  refine ⟨t, flush1_3 t, ?_⟩
  rw [mem_tile1]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 128 ≤ (i 1).val ∧ (i 1).val < win1_3.index t (1 : Fin 2) * 128 + 128
    rw [e31]; omega

/-- Region 1 (with the maximum with zero): the output array after the region. -/
theorem final1 (c : Dev nD) :
    (dat1 (F := Ideal) V c).arrAt 3 cfg1.N = GPost true (V c main_v26) (V c main_v15) (V c main_v27) := by
  exact (dat1 (F := Ideal) V c).arrAt_eq_of_cover 3 (GPost true (V c main_v26) (V c main_v15) (V c main_v27))
    (fun t _ => tile_written1 V c t) tiles_cover1

/-! ## Region 3: from the twenty tiles to the table -/

/-- Region 3's payload at row p and column q of the tile: a(p, q) · d(p) + b(q), then its maximum with zero. -/
theorem scale_bias_clip3_apply (x0 : Vec Ideal S5000x128 .f32) (x1 : Vec Ideal S5000x1 .f32) (x2 : Vec Ideal S1x128 .f32)
    (p : Fin 5000) (q : Fin 128) :
    k3_pay1 x0 x1 x2 (ij p q) = max (x0 (ij p q) * x1 (ixP p) + x2 (i1q q)) 0 := by
  unfold k3_pay1
  simp only [shapeCast_self]
  rw [maximumf_apply, addf_apply, mulf_apply, broadcast_apply, scale_column_spread_apply, bias_row_spread_apply,
    Ideal.ofBits_def, Ideal.ofBits_zero_f32]

/-- The printed tile maps of region 3, decided once over the twenty tiles: the aggregated table, the scale column and the
    output sit at block (t, 0); the bias row stays at block (0, 0). -/
theorem tile_maps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT TILE t WRITES BACK is rows [5000t, 5000t + 5000) of `GPost true a d b` of the arrays the region found. -/
theorem tile_written3 (c : Dev nD) (t : Fin cfg3.N) :
    (dat3 (F := Ideal) V c).flushed 3 t
      = ((cfg3.win 3).blk t).view.read (Elt Ideal) (GPost true (V c main_v39) (V c main_v15) (V c main_v40)) := by
  show (cfg3.win 3).cut (grid3.coords t) ((dat3 (F := Ideal) V c).after 3 t) = _
  rw [after3_3]
  unfold out3_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := tile_maps3 t
  have hN : cfg3.N = 20 := N_3
  have htv : t.val < 20 := hN ▸ t.isLt
  funext j
  obtain ⟨p, q, rfl⟩ : ∃ (p : Fin 5000) (q : Fin 128), j = ij p q := ⟨j 0, j 1, (ij_eta j).symm⟩
  -- the row of the table that row p of tile t is
  have hr : t.val * 5000 + p.val < 100000 := by have := p.isLt; omega
  -- where each window's block puts its coordinate: block index × block size + 1 × the coordinate inside
  have hout : ((cfg3.win 3).blk t).view.emb (ij p q) = ij (⟨t.val * 5000 + p.val, hr⟩ : Fin 100000) q := by
    funext a; apply Fin.ext
    match a with
    | ⟨0, _⟩ => show win3_3.index t (0 : Fin 2) * 5000 + 1 * p.val = t.val * 5000 + p.val; rw [e30]; omega
    | ⟨1, _⟩ => show win3_3.index t (1 : Fin 2) * 128 + 1 * q.val = q.val; rw [e31]; omega
  have htab : ((cfg3.win 0).blk t).view.emb (ij p q) = ij (⟨t.val * 5000 + p.val, hr⟩ : Fin 100000) q := by
    funext a; apply Fin.ext
    match a with
    | ⟨0, _⟩ => show win3_0.index t (0 : Fin 2) * 5000 + 1 * p.val = t.val * 5000 + p.val; rw [e00]; omega
    | ⟨1, _⟩ => show win3_0.index t (1 : Fin 2) * 128 + 1 * q.val = q.val; rw [e01]; omega
  have hcol : ((cfg3.win 1).blk t).view.emb (ixP p) = ixP (⟨t.val * 5000 + p.val, hr⟩ : Fin 100000) := by
    funext a; apply Fin.ext
    match a with
    | ⟨0, _⟩ => show win3_1.index t (0 : Fin 2) * 5000 + 1 * p.val = t.val * 5000 + p.val; rw [e10]; omega
    | ⟨1, _⟩ => show win3_1.index t (1 : Fin 2) * 1 + 1 * 0 = 0; rw [e11]
  have hrow : ((cfg3.win 2).blk t).view.emb (i1q q) = i1q q := by
    funext a; apply Fin.ext
    match a with
    | ⟨0, _⟩ => show win3_2.index t (0 : Fin 2) * 1 + 1 * 0 = 0; rw [e20]
    | ⟨1, _⟩ => show win3_2.index t (1 : Fin 2) * 128 + 1 * q.val = q.val; rw [e21]; omega
  -- each input block, read where the output's rectangle says
  have rtab : iblk3 V c 0 t (ij p q) = V c main_v39 (ij (⟨t.val * 5000 + p.val, hr⟩ : Fin 100000) q) :=
    congrArg (V c main_v39) htab
  have rcol : iblk3 V c 1 t (ixP p) = V c main_v15 (ixP (⟨t.val * 5000 + p.val, hr⟩ : Fin 100000)) :=
    congrArg (V c main_v15) hcol
  have rrow : iblk3 V c 2 t (i1q q) = V c main_v40 (i1q q) :=
    congrArg (V c main_v40) hrow
  refine (scale_bias_clip3_apply (iblk3 V c 0 t) (iblk3 V c 1 t) (iblk3 V c 2 t) p q).trans ?_
  show _ = GPost true (V c main_v39) (V c main_v15) (V c main_v40) (((cfg3.win 3).blk t).view.emb (ij p q))
  rw [hout, GPost_apply, rtab, rcol, rrow]
  rfl

/-- An index of the table is in tile t's block iff each coordinate is in the block's range on its axis. -/
theorem mem_tile3 (t : Fin cfg3.N) (i : S100000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v41).slice (win3_3.rect t)).set ↔ _
  rw [View.set_slice_whole, Rect.mem_set_unit]
  exact Iff.rfl

/-- THE TWENTY TILES COVER THE TABLE: row r is in the block of tile r / 5000, which writes back. -/
theorem tiles_cover3 (i : S100000x128.Idx) :
    ∃ t : Fin cfg3.N, (cfg3.win 3).flush t = true ∧ i ∈ ((cfg3.win 3).blk t).view.set := by
  have hr : (i 0).val < 100000 := (i 0).isLt
  have hq : (i 1).val < 128 := (i 1).isLt
  have hlt : (i 0).val / 5000 < cfg3.N := by rw [show cfg3.N = 20 from N_3]; omega
  obtain ⟨t, ht⟩ : ∃ t : Fin cfg3.N, t.val = (i 0).val / 5000 := ⟨⟨(i 0).val / 5000, hlt⟩, rfl⟩
  obtain ⟨-, -, -, -, -, -, e30, e31⟩ := tile_maps3 t
  refine ⟨t, flush3_3 t, ?_⟩
  rw [mem_tile3]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 128 ≤ (i 1).val ∧ (i 1).val < win3_3.index t (1 : Fin 2) * 128 + 128
    rw [e31]; omega

/-- Region 3 (with the maximum with zero): the output array after the region. -/
theorem final3 (c : Dev nD) :
    (dat3 (F := Ideal) V c).arrAt 3 cfg3.N = GPost true (V c main_v39) (V c main_v15) (V c main_v40) := by
  exact (dat3 (F := Ideal) V c).arrAt_eq_of_cover 3 (GPost true (V c main_v39) (V c main_v15) (V c main_v40))
    (fun t _ => tile_written3 V c t) tiles_cover3

/-! ## Region 5: from the twenty tiles to the table (no maximum) -/

/-- Region 5's payload at row p and column q of the tile: a(p, q) · d(p) + b(q). -/
theorem scale_bias5_apply (x0 : Vec Ideal S5000x128 .f32) (x1 : Vec Ideal S5000x1 .f32) (x2 : Vec Ideal S1x128 .f32)
    (p : Fin 5000) (q : Fin 128) :
    k5_pay1 x0 x1 x2 (ij p q) = x0 (ij p q) * x1 (ixP p) + x2 (i1q q) := by
  unfold k5_pay1
  simp only [shapeCast_self]
  rw [addf_apply, mulf_apply, scale_column_spread_apply, bias_row_spread_apply]

/-- The printed tile maps of region 5, decided once over the twenty tiles: the aggregated table, the scale column and the
    output sit at block (t, 0); the bias row stays at block (0, 0). -/
theorem tile_maps5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT TILE t WRITES BACK is rows [5000t, 5000t + 5000) of `GPost false a d b` of the arrays the region found. -/
theorem tile_written5 (c : Dev nD) (t : Fin cfg5.N) :
    (dat5 (F := Ideal) V c).flushed 3 t
      = ((cfg5.win 3).blk t).view.read (Elt Ideal) (GPost false (V c main_v52) (V c main_v15) (V c main_v53)) := by
  show (cfg5.win 3).cut (grid5.coords t) ((dat5 (F := Ideal) V c).after 3 t) = _
  rw [after5_3]
  unfold out5_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := tile_maps5 t
  have hN : cfg5.N = 20 := N_5
  have htv : t.val < 20 := hN ▸ t.isLt
  funext j
  obtain ⟨p, q, rfl⟩ : ∃ (p : Fin 5000) (q : Fin 128), j = ij p q := ⟨j 0, j 1, (ij_eta j).symm⟩
  -- the row of the table that row p of tile t is
  have hr : t.val * 5000 + p.val < 100000 := by have := p.isLt; omega
  -- where each window's block puts its coordinate: block index × block size + 1 × the coordinate inside
  have hout : ((cfg5.win 3).blk t).view.emb (ij p q) = ij (⟨t.val * 5000 + p.val, hr⟩ : Fin 100000) q := by
    funext a; apply Fin.ext
    match a with
    | ⟨0, _⟩ => show win5_3.index t (0 : Fin 2) * 5000 + 1 * p.val = t.val * 5000 + p.val; rw [e30]; omega
    | ⟨1, _⟩ => show win5_3.index t (1 : Fin 2) * 128 + 1 * q.val = q.val; rw [e31]; omega
  have htab : ((cfg5.win 0).blk t).view.emb (ij p q) = ij (⟨t.val * 5000 + p.val, hr⟩ : Fin 100000) q := by
    funext a; apply Fin.ext
    match a with
    | ⟨0, _⟩ => show win5_0.index t (0 : Fin 2) * 5000 + 1 * p.val = t.val * 5000 + p.val; rw [e00]; omega
    | ⟨1, _⟩ => show win5_0.index t (1 : Fin 2) * 128 + 1 * q.val = q.val; rw [e01]; omega
  have hcol : ((cfg5.win 1).blk t).view.emb (ixP p) = ixP (⟨t.val * 5000 + p.val, hr⟩ : Fin 100000) := by
    funext a; apply Fin.ext
    match a with
    | ⟨0, _⟩ => show win5_1.index t (0 : Fin 2) * 5000 + 1 * p.val = t.val * 5000 + p.val; rw [e10]; omega
    | ⟨1, _⟩ => show win5_1.index t (1 : Fin 2) * 1 + 1 * 0 = 0; rw [e11]
  have hrow : ((cfg5.win 2).blk t).view.emb (i1q q) = i1q q := by
    funext a; apply Fin.ext
    match a with
    | ⟨0, _⟩ => show win5_2.index t (0 : Fin 2) * 1 + 1 * 0 = 0; rw [e20]
    | ⟨1, _⟩ => show win5_2.index t (1 : Fin 2) * 128 + 1 * q.val = q.val; rw [e21]; omega
  -- each input block, read where the output's rectangle says
  have rtab : iblk5 V c 0 t (ij p q) = V c main_v52 (ij (⟨t.val * 5000 + p.val, hr⟩ : Fin 100000) q) :=
    congrArg (V c main_v52) htab
  have rcol : iblk5 V c 1 t (ixP p) = V c main_v15 (ixP (⟨t.val * 5000 + p.val, hr⟩ : Fin 100000)) :=
    congrArg (V c main_v15) hcol
  have rrow : iblk5 V c 2 t (i1q q) = V c main_v53 (i1q q) :=
    congrArg (V c main_v53) hrow
  refine (scale_bias5_apply (iblk5 V c 0 t) (iblk5 V c 1 t) (iblk5 V c 2 t) p q).trans ?_
  show _ = GPost false (V c main_v52) (V c main_v15) (V c main_v53) (((cfg5.win 3).blk t).view.emb (ij p q))
  rw [hout, GPost_apply, rtab, rcol, rrow]
  rfl

/-- An index of the table is in tile t's block iff each coordinate is in the block's range on its axis. -/
theorem mem_tile5 (t : Fin cfg5.N) (i : S100000x128.Idx) :
    i ∈ ((cfg5.win 3).blk t).view.set
      ↔ ∀ a : Fin 2, win5_3.index t a * S5000x128.size a ≤ (i a).val
          ∧ (i a).val < win5_3.index t a * S5000x128.size a + S5000x128.size a := by
  show i ∈ ((View.whole main_v54).slice (win5_3.rect t)).set ↔ _
  rw [View.set_slice_whole, Rect.mem_set_unit]
  exact Iff.rfl

/-- THE TWENTY TILES COVER THE TABLE: row r is in the block of tile r / 5000, which writes back. -/
theorem tiles_cover5 (i : S100000x128.Idx) :
    ∃ t : Fin cfg5.N, (cfg5.win 3).flush t = true ∧ i ∈ ((cfg5.win 3).blk t).view.set := by
  have hr : (i 0).val < 100000 := (i 0).isLt
  have hq : (i 1).val < 128 := (i 1).isLt
  have hlt : (i 0).val / 5000 < cfg5.N := by rw [show cfg5.N = 20 from N_5]; omega
  obtain ⟨t, ht⟩ : ∃ t : Fin cfg5.N, t.val = (i 0).val / 5000 := ⟨⟨(i 0).val / 5000, hlt⟩, rfl⟩
  obtain ⟨-, -, -, -, -, -, e30, e31⟩ := tile_maps5 t
  refine ⟨t, flush5_3 t, ?_⟩
  rw [mem_tile5]
  intro a
  match a with
  | ⟨0, _⟩ =>
    show win5_3.index t (0 : Fin 2) * 5000 ≤ (i 0).val ∧ (i 0).val < win5_3.index t (0 : Fin 2) * 5000 + 5000
    rw [e30, ht]; omega
  | ⟨1, _⟩ =>
    show win5_3.index t (1 : Fin 2) * 128 ≤ (i 1).val ∧ (i 1).val < win5_3.index t (1 : Fin 2) * 128 + 128
    rw [e31]; omega

/-- Region 5 (no maximum): the output array after the region. -/
theorem final5 (c : Dev nD) :
    (dat5 (F := Ideal) V c).arrAt 3 cfg5.N = GPost false (V c main_v52) (V c main_v15) (V c main_v53) := by
  exact (dat5 (F := Ideal) V c).arrAt_eq_of_cover 3 (GPost false (V c main_v52) (V c main_v15) (V c main_v53))
    (fun t _ => tile_written5 V c t) tiles_cover5

end Cert.KernelIdeal.GcnPost

end
-- ==== Proof.KWalkHost.lean ====
/-
  The kernel program's host stretches, each read as its operations' terms of the contents before it.

  The program is thirteen segments: seven host stretches among six kernel regions. From ANY buffer contents `V` a
  stretch leaves each buffer it writes at its operations' composed term of `V`, and every other buffer as it was.
  The terms are the shared definitions: the edge lists, the degree and the scale, the per-layer aggregation of
  gathered rows, the bias row, and the mean pool.
-/
import proofs.«139671_j85933705658442_1_alg».proof.Proof.Gen.KernelIdeal.Frame
import proofs.«139671_j85933705658442_1_alg».proof.Proof.SpecOps
import Idealize.ShloMosaic.Lib.StableHlo.Run

set_option maxRecDepth 16384

noncomputable section

namespace Cert.KernelIdeal.GcnHost

open Idealize.ShloMosaic Idealize.ShloMosaic.TcCoe Idealize.ShloMosaic.StableHlo
open Cert.KernelIdeal Cert.KernelIdeal.Gen Cert.Gcn

/-- The buffers later segments still read once the first region is entered: the two edge lists, the scale
    column, the graph ids, the biases and the later layers' weights. No later segment writes one of them. -/
def kept : List (Ref sig .tc) :=
  [main_v5, main_v6, main_v15, main_arg2, main_arg4, main_arg5, main_arg6, main_arg7, main_arg8]

/-- The arguments, which the first three stretches (up to the first region's entry) leave alone. -/
def args : List (Ref sig .tc) :=
  [main_arg0, main_arg1, main_arg2, main_arg3, main_arg4, main_arg5, main_arg6, main_arg7, main_arg8]

variable (V : Valuation τ sig (Elt Ideal))

set_option maxHeartbeats 16000000 in
/-- The first stretch: the edge lists, and the degree's comparison and reciprocal square root the guarded scale is selected from. -/
theorem stretch0 :
    StableHlo.after hostOps0 V (Proc.devRef .tc main_v5) = srcV (V (Proc.devRef .tc main_arg1))
    ∧ StableHlo.after hostOps0 V (Proc.devRef .tc main_v6) = dstV (V (Proc.devRef .tc main_arg1))
    ∧ StableHlo.after hostOps0 V (Proc.devRef .tc main_v12) = cmpf .ogt (degV (dstV (V (Proc.devRef .tc main_arg1)))) (broadcastInDim Gcn.S100000 ![] (by decide) (constant (F := Ideal) Gcn.S_ .f32 0x00000000#32))
    ∧ StableHlo.after hostOps0 V (Proc.devRef .tc main_v13) = Host.rsqrt (degV (dstV (V (Proc.devRef .tc main_arg1))))
    ∧ StableHlo.after hostOps0 V (Proc.devRef .tc main_cst_2) = constant (F := Ideal) Gcn.S_ .f32 0x00000000#32
    ∧ ∀ b ∈ args, StableHlo.after hostOps0 V (Proc.devRef .tc b) = V (Proc.devRef .tc b) := by
  refine ⟨?_, ?_, ?_, ?_, ?_, ?_⟩
  · after_results; first | done | rfl
  · after_results; first | done | rfl
  · after_results; first | done | rfl
  · after_results; first | done | rfl
  · after_results; first | done | rfl
  · intro b hb
    simp only [args, List.mem_cons, List.not_mem_nil, or_false] at hb
    rcases hb with rfl | rfl | rfl | rfl | rfl | rfl | rfl | rfl | rfl
    all_goals (after_results; first | done | rfl)

set_option maxHeartbeats 16000000 in
/-- The guarded select: the scale vector, from the comparison, the reciprocal square root and the zero. -/
theorem stretch0_1 :
    StableHlo.after hostOps0_1 V (Proc.devRef .tc main_v14)
      = select (V (Proc.devRef .tc main_v12)) (V (Proc.devRef .tc main_v13)) (broadcastInDim Gcn.S100000 ![] (by decide) (id (V (Proc.devRef .tc main_cst_2))))
    ∧ (∀ b ∈ args, StableHlo.after hostOps0_1 V (Proc.devRef .tc b) = V (Proc.devRef .tc b))
    ∧ StableHlo.after hostOps0_1 V (Proc.devRef .tc main_v5) = V (Proc.devRef .tc main_v5)
    ∧ StableHlo.after hostOps0_1 V (Proc.devRef .tc main_v6) = V (Proc.devRef .tc main_v6) := by
  refine ⟨?_, ?_, ?_, ?_⟩
  · after_results; first | done | rfl
  · intro b hb
    simp only [args, List.mem_cons, List.not_mem_nil, or_false] at hb
    rcases hb with rfl | rfl | rfl | rfl | rfl | rfl | rfl | rfl | rfl
    all_goals (after_results; first | done | rfl)
  · after_results; first | done | rfl
  · after_results; first | done | rfl

set_option maxHeartbeats 16000000 in
/-- The scale vector reshaped to a column. -/
theorem stretch0_2 :
    StableHlo.after hostOps0_2 V (Proc.devRef .tc main_v15) = shapeCast Gcn.S100000x1 (V (Proc.devRef .tc main_v14)) (by decide)
    ∧ (∀ b ∈ args, StableHlo.after hostOps0_2 V (Proc.devRef .tc b) = V (Proc.devRef .tc b))
    ∧ StableHlo.after hostOps0_2 V (Proc.devRef .tc main_v5) = V (Proc.devRef .tc main_v5)
    ∧ StableHlo.after hostOps0_2 V (Proc.devRef .tc main_v6) = V (Proc.devRef .tc main_v6) := by
  refine ⟨?_, ?_, ?_, ?_⟩
  · after_results; first | done | rfl
  · intro b hb
    simp only [args, List.mem_cons, List.not_mem_nil, or_false] at hb
    rcases hb with rfl | rfl | rfl | rfl | rfl | rfl | rfl | rfl | rfl
    all_goals (after_results; first | done | rfl)
  · after_results; first | done | rfl
  · after_results; first | done | rfl

set_option maxHeartbeats 16000000 in
/-- Layer 1's aggregation stretch: the scaled rows gathered at the sources and added up per destination, and the bias as a row. -/
theorem stretch1 :
    StableHlo.after hostOps1 V (Proc.devRef .tc main_v26) = aggK (V (Proc.devRef .tc main_v5)) (V (Proc.devRef .tc main_v6)) (V (Proc.devRef .tc main_v16))
    ∧ StableHlo.after hostOps1 V (Proc.devRef .tc main_v27) = shapeCast Gcn.S1x128 (V (Proc.devRef .tc main_arg4)) (by decide)
    ∧ ∀ b ∈ kept, StableHlo.after hostOps1 V (Proc.devRef .tc b) = V (Proc.devRef .tc b) := by
  refine ⟨?_, ?_, ?_⟩
  · after_results; first | done | rfl
  · after_results; first | done | rfl
  · intro b hb
    simp only [kept, List.mem_cons, List.not_mem_nil, or_false] at hb
    rcases hb with rfl | rfl | rfl | rfl | rfl | rfl | rfl | rfl | rfl
    all_goals (after_results; first | done | rfl)

set_option maxHeartbeats 16000000 in
/-- Layer 2's aggregation stretch: the scaled rows gathered at the sources and added up per destination, and the bias as a row. -/
theorem stretch3 :
    StableHlo.after hostOps3 V (Proc.devRef .tc main_v39) = aggK (V (Proc.devRef .tc main_v5)) (V (Proc.devRef .tc main_v6)) (V (Proc.devRef .tc main_v29))
    ∧ StableHlo.after hostOps3 V (Proc.devRef .tc main_v40) = shapeCast Gcn.S1x128 (V (Proc.devRef .tc main_arg6)) (by decide)
    ∧ ∀ b ∈ kept, StableHlo.after hostOps3 V (Proc.devRef .tc b) = V (Proc.devRef .tc b) := by
  refine ⟨?_, ?_, ?_⟩
  · after_results; first | done | rfl
  · after_results; first | done | rfl
  · intro b hb
    simp only [kept, List.mem_cons, List.not_mem_nil, or_false] at hb
    rcases hb with rfl | rfl | rfl | rfl | rfl | rfl | rfl | rfl | rfl
    all_goals (after_results; first | done | rfl)

set_option maxHeartbeats 16000000 in
/-- Layer 3's aggregation stretch: the scaled rows gathered at the sources and added up per destination, and the bias as a row. -/
theorem stretch5 :
    StableHlo.after hostOps5 V (Proc.devRef .tc main_v52) = aggK (V (Proc.devRef .tc main_v5)) (V (Proc.devRef .tc main_v6)) (V (Proc.devRef .tc main_v42))
    ∧ StableHlo.after hostOps5 V (Proc.devRef .tc main_v53) = shapeCast Gcn.S1x128 (V (Proc.devRef .tc main_arg8)) (by decide)
    ∧ ∀ b ∈ kept, StableHlo.after hostOps5 V (Proc.devRef .tc b) = V (Proc.devRef .tc b) := by
  refine ⟨?_, ?_, ?_⟩
  · after_results; first | done | rfl
  · after_results; first | done | rfl
  · intro b hb
    simp only [kept, List.mem_cons, List.not_mem_nil, or_false] at hb
    rcases hb with rfl | rfl | rfl | rfl | rfl | rfl | rfl | rfl | rfl
    all_goals (after_results; first | done | rfl)

set_option maxHeartbeats 16000000 in
/-- The last stretch: the mean pool of the last layer's rows over the graph ids. -/
theorem stretch6 :
    StableHlo.after hostOps6 V (Proc.devRef .tc main_v65) = poolV (V (Proc.devRef .tc main_arg2)) (V (Proc.devRef .tc main_v54)) := by
  after_results; first | done | rfl

end Cert.KernelIdeal.GcnHost

end
-- ==== Proof.KWalk.lean ====
/-
  The kernel program's result as ONE function of its arguments, at the ideal values.

  The buffer contents at each of the thirteen segment boundaries are a fold from the launch memory. Read back
  through the fold: the first three stretches build the edge lists and the scale column from the edge table;
  each layer is a linear-and-scale region, an aggregation stretch and a scale-bias region; the last stretch is
  the mean pool. The edge lists, the scale column, the graph ids and the later layers' weights and biases are
  carried unchanged from the first region's entry to where they are read, since no later segment writes them.
  So the result buffer ends at the mean pool of three kernel-side layers of the arguments.
-/
import proofs.«139671_j85933705658442_1_alg».proof.Proof.Gen.KernelIdeal.Frame
import proofs.«139671_j85933705658442_1_alg».proof.Proof.SpecOps
import proofs.«139671_j85933705658442_1_alg».proof.Proof.RegionLin
import proofs.«139671_j85933705658442_1_alg».proof.Proof.RegionPost
import proofs.«139671_j85933705658442_1_alg».proof.Proof.KWalkHost

set_option maxRecDepth 16384

noncomputable section

namespace Cert.KernelIdeal.GcnWalk

open Idealize.ShloMosaic Idealize.ShloMosaic.TcCoe Idealize.ShloMosaic.StableHlo
open Cert.KernelIdeal Cert.KernelIdeal.Gen Cert.Gcn Cert.KernelIdeal.GcnHost

variable (m : (ℓ : Loc nD τ sig) → Buf (Elt Ideal) ℓ) (ρ : Dev nD → PrngReg) (c : Dev nD)

/-! ## The first region's entry: the edge lists, the scale column, the arguments -/

/-- An argument is as launched at the first region's entry. -/
theorem entry_arg (b : Ref sig .tc) (hb : b ∈ args) :
    W3 m ρ c (Proc.devRef .tc b) = W0 m ρ c (Proc.devRef .tc b) :=
  ((stretch0_2 (W2 m ρ c)).2.1 b hb).trans (((stretch0_1 (W1 m ρ c)).2.1 b hb).trans ((stretch0 (W0 m ρ c)).2.2.2.2.2 b hb))

theorem entry_src : W3 m ρ c (Proc.devRef .tc main_v5) = srcV (W0 m ρ c (Proc.devRef .tc main_arg1)) :=
  ((stretch0_2 (W2 m ρ c)).2.2.1).trans (((stretch0_1 (W1 m ρ c)).2.2.1).trans (stretch0 (W0 m ρ c)).1)

theorem entry_dst : W3 m ρ c (Proc.devRef .tc main_v6) = dstV (W0 m ρ c (Proc.devRef .tc main_arg1)) :=
  ((stretch0_2 (W2 m ρ c)).2.2.2).trans (((stretch0_1 (W1 m ρ c)).2.2.2).trans (stretch0 (W0 m ρ c)).2.1)

/-- The scale vector at the second stretch's end: the guarded select of the first stretch's pieces. -/
theorem entry_dinv : W2 m ρ c (Proc.devRef .tc main_v14) = dinvV (dstV (W0 m ρ c (Proc.devRef .tc main_arg1))) := by
  have h14 : W2 m ρ c (Proc.devRef .tc main_v14)
      = select (W1 m ρ c (Proc.devRef .tc main_v12)) (W1 m ρ c (Proc.devRef .tc main_v13))
          (broadcastInDim Gcn.S100000 ![] (by decide) (id (W1 m ρ c (Proc.devRef .tc main_cst_2)))) :=
    (stretch0_1 (W1 m ρ c)).1
  have h12 : W1 m ρ c (Proc.devRef .tc main_v12)
      = cmpf .ogt (degV (dstV (W0 m ρ c (Proc.devRef .tc main_arg1))))
          (broadcastInDim Gcn.S100000 ![] (by decide) (constant (F := Ideal) Gcn.S_ .f32 0x00000000#32)) :=
    (stretch0 (W0 m ρ c)).2.2.1
  have h13 : W1 m ρ c (Proc.devRef .tc main_v13) = Host.rsqrt (degV (dstV (W0 m ρ c (Proc.devRef .tc main_arg1)))) :=
    (stretch0 (W0 m ρ c)).2.2.2.1
  have hc : W1 m ρ c (Proc.devRef .tc main_cst_2) = constant (F := Ideal) Gcn.S_ .f32 0x00000000#32 :=
    (stretch0 (W0 m ρ c)).2.2.2.2.1
  rw [h14, h12, h13, hc]
  rfl

theorem entry_scale : W3 m ρ c (Proc.devRef .tc main_v15) = dcolV (dstV (W0 m ρ c (Proc.devRef .tc main_arg1))) :=
  ((stretch0_2 (W2 m ρ c)).1).trans
    (congrArg (fun v : FVec Ideal Gcn.S100000 .f32 => shapeCast Gcn.S100000x1 v (by decide)) (entry_dinv m ρ c))

/-! ## What is carried from the first region's entry -/

theorem carried_r0 : ∀ b ∈ kept, W4 m ρ c (Proc.devRef .tc b) = W3 m ρ c (Proc.devRef .tc b) := by
  intro b hb
  simp only [kept, List.mem_cons, List.not_mem_nil, or_false] at hb
  rcases hb with rfl | rfl | rfl | rfl | rfl | rfl | rfl | rfl | rfl
  · exact W4_of_ne m ρ c _ (by decide)
  · exact W4_of_ne m ρ c _ (by decide)
  · exact (W4_arr m ρ c 2).trans (((dat0 (V3 m ρ) c).arrAt_in 2 rfl _).trans (A_eq0 (V3 m ρ) c 2))
  · exact W4_of_ne m ρ c _ (by decide)
  · exact W4_of_ne m ρ c _ (by decide)
  · exact W4_of_ne m ρ c _ (by decide)
  · exact W4_of_ne m ρ c _ (by decide)
  · exact W4_of_ne m ρ c _ (by decide)
  · exact W4_of_ne m ρ c _ (by decide)

theorem carried_r1 : ∀ b ∈ kept, W6 m ρ c (Proc.devRef .tc b) = W5 m ρ c (Proc.devRef .tc b) := by
  intro b hb
  simp only [kept, List.mem_cons, List.not_mem_nil, or_false] at hb
  rcases hb with rfl | rfl | rfl | rfl | rfl | rfl | rfl | rfl | rfl
  · exact W6_of_ne m ρ c _ (by decide)
  · exact W6_of_ne m ρ c _ (by decide)
  · exact (W6_arr m ρ c 1).trans (((dat1 (V5 m ρ) c).arrAt_in 1 rfl _).trans (A_eq1 (V5 m ρ) c 1))
  · exact W6_of_ne m ρ c _ (by decide)
  · exact W6_of_ne m ρ c _ (by decide)
  · exact W6_of_ne m ρ c _ (by decide)
  · exact W6_of_ne m ρ c _ (by decide)
  · exact W6_of_ne m ρ c _ (by decide)
  · exact W6_of_ne m ρ c _ (by decide)

theorem carried_r2 : ∀ b ∈ kept, W7 m ρ c (Proc.devRef .tc b) = W6 m ρ c (Proc.devRef .tc b) := by
  intro b hb
  simp only [kept, List.mem_cons, List.not_mem_nil, or_false] at hb
  rcases hb with rfl | rfl | rfl | rfl | rfl | rfl | rfl | rfl | rfl
  · exact W7_of_ne m ρ c _ (by decide)
  · exact W7_of_ne m ρ c _ (by decide)
  · exact (W7_arr m ρ c 2).trans (((dat2 (V6 m ρ) c).arrAt_in 2 rfl _).trans (A_eq2 (V6 m ρ) c 2))
  · exact W7_of_ne m ρ c _ (by decide)
  · exact W7_of_ne m ρ c _ (by decide)
  · exact (W7_arr m ρ c 1).trans (((dat2 (V6 m ρ) c).arrAt_in 1 rfl _).trans (A_eq2 (V6 m ρ) c 1))
  · exact W7_of_ne m ρ c _ (by decide)
  · exact W7_of_ne m ρ c _ (by decide)
  · exact W7_of_ne m ρ c _ (by decide)

theorem carried_r3 : ∀ b ∈ kept, W9 m ρ c (Proc.devRef .tc b) = W8 m ρ c (Proc.devRef .tc b) := by
  intro b hb
  simp only [kept, List.mem_cons, List.not_mem_nil, or_false] at hb
  rcases hb with rfl | rfl | rfl | rfl | rfl | rfl | rfl | rfl | rfl
  · exact W9_of_ne m ρ c _ (by decide)
  · exact W9_of_ne m ρ c _ (by decide)
  · exact (W9_arr m ρ c 1).trans (((dat3 (V8 m ρ) c).arrAt_in 1 rfl _).trans (A_eq3 (V8 m ρ) c 1))
  · exact W9_of_ne m ρ c _ (by decide)
  · exact W9_of_ne m ρ c _ (by decide)
  · exact W9_of_ne m ρ c _ (by decide)
  · exact W9_of_ne m ρ c _ (by decide)
  · exact W9_of_ne m ρ c _ (by decide)
  · exact W9_of_ne m ρ c _ (by decide)

theorem carried_r4 : ∀ b ∈ kept, W10 m ρ c (Proc.devRef .tc b) = W9 m ρ c (Proc.devRef .tc b) := by
  intro b hb
  simp only [kept, List.mem_cons, List.not_mem_nil, or_false] at hb
  rcases hb with rfl | rfl | rfl | rfl | rfl | rfl | rfl | rfl | rfl
  · exact W10_of_ne m ρ c _ (by decide)
  · exact W10_of_ne m ρ c _ (by decide)
  · exact (W10_arr m ρ c 2).trans (((dat4 (V9 m ρ) c).arrAt_in 2 rfl _).trans (A_eq4 (V9 m ρ) c 2))
  · exact W10_of_ne m ρ c _ (by decide)
  · exact W10_of_ne m ρ c _ (by decide)
  · exact W10_of_ne m ρ c _ (by decide)
  · exact W10_of_ne m ρ c _ (by decide)
  · exact (W10_arr m ρ c 1).trans (((dat4 (V9 m ρ) c).arrAt_in 1 rfl _).trans (A_eq4 (V9 m ρ) c 1))
  · exact W10_of_ne m ρ c _ (by decide)

theorem carried_r5 : ∀ b ∈ kept, W12 m ρ c (Proc.devRef .tc b) = W11 m ρ c (Proc.devRef .tc b) := by
  intro b hb
  simp only [kept, List.mem_cons, List.not_mem_nil, or_false] at hb
  rcases hb with rfl | rfl | rfl | rfl | rfl | rfl | rfl | rfl | rfl
  · exact W12_of_ne m ρ c _ (by decide)
  · exact W12_of_ne m ρ c _ (by decide)
  · exact (W12_arr m ρ c 1).trans (((dat5 (V11 m ρ) c).arrAt_in 1 rfl _).trans (A_eq5 (V11 m ρ) c 1))
  · exact W12_of_ne m ρ c _ (by decide)
  · exact W12_of_ne m ρ c _ (by decide)
  · exact W12_of_ne m ρ c _ (by decide)
  · exact W12_of_ne m ρ c _ (by decide)
  · exact W12_of_ne m ρ c _ (by decide)
  · exact W12_of_ne m ρ c _ (by decide)

/-- At every later boundary a carried buffer holds what it held at the first region's entry. -/
theorem at4 (b : Ref sig .tc) (hb : b ∈ kept) : W4 m ρ c (Proc.devRef .tc b) = W3 m ρ c (Proc.devRef .tc b) :=
  carried_r0 m ρ c b hb
theorem at5 (b : Ref sig .tc) (hb : b ∈ kept) : W5 m ρ c (Proc.devRef .tc b) = W3 m ρ c (Proc.devRef .tc b) :=
  ((stretch1 (W4 m ρ c)).2.2 b hb).trans (at4 m ρ c b hb)
theorem at6 (b : Ref sig .tc) (hb : b ∈ kept) : W6 m ρ c (Proc.devRef .tc b) = W3 m ρ c (Proc.devRef .tc b) :=
  (carried_r1 m ρ c b hb).trans (at5 m ρ c b hb)
theorem at7 (b : Ref sig .tc) (hb : b ∈ kept) : W7 m ρ c (Proc.devRef .tc b) = W3 m ρ c (Proc.devRef .tc b) :=
  (carried_r2 m ρ c b hb).trans (at6 m ρ c b hb)
theorem at8 (b : Ref sig .tc) (hb : b ∈ kept) : W8 m ρ c (Proc.devRef .tc b) = W3 m ρ c (Proc.devRef .tc b) :=
  ((stretch3 (W7 m ρ c)).2.2 b hb).trans (at7 m ρ c b hb)
theorem at9 (b : Ref sig .tc) (hb : b ∈ kept) : W9 m ρ c (Proc.devRef .tc b) = W3 m ρ c (Proc.devRef .tc b) :=
  (carried_r3 m ρ c b hb).trans (at8 m ρ c b hb)
theorem at10 (b : Ref sig .tc) (hb : b ∈ kept) : W10 m ρ c (Proc.devRef .tc b) = W3 m ρ c (Proc.devRef .tc b) :=
  (carried_r4 m ρ c b hb).trans (at9 m ρ c b hb)
theorem at11 (b : Ref sig .tc) (hb : b ∈ kept) : W11 m ρ c (Proc.devRef .tc b) = W3 m ρ c (Proc.devRef .tc b) :=
  ((stretch5 (W10 m ρ c)).2.2 b hb).trans (at10 m ρ c b hb)
theorem at12 (b : Ref sig .tc) (hb : b ∈ kept) : W12 m ρ c (Proc.devRef .tc b) = W3 m ρ c (Proc.devRef .tc b) :=
  (carried_r5 m ρ c b hb).trans (at11 m ρ c b hb)

/-! ## The values, boundary by boundary -/

/-- A carried argument at the first region's entry is as launched. -/
theorem kept_arg (b : Ref sig .tc) (hb : b ∈ args) : W3 m ρ c (Proc.devRef .tc b) = W0 m ρ c (Proc.devRef .tc b) :=
  entry_arg m ρ c b hb

/-- After the first region: the first layer's scaled product. -/
theorem val4 : W4 m ρ c (Proc.devRef .tc main_v16) = GLin (W0 m ρ c (Proc.devRef .tc main_arg0)) (W0 m ρ c (Proc.devRef .tc main_arg3)) (dcolV (dstV (W0 m ρ c (Proc.devRef .tc main_arg1)))) := by
  refine (W4_arr m ρ c 3).trans ?_
  rw [GcnLin.final0 (V3 m ρ) c]
  show GLin (W3 m ρ c (Proc.devRef .tc main_arg0)) (W3 m ρ c (Proc.devRef .tc main_arg3))
    (W3 m ρ c (Proc.devRef .tc main_v15)) = _
  rw [entry_arg m ρ c main_arg0 (by simp [args]), entry_arg m ρ c main_arg3 (by simp [args]), entry_scale m ρ c]

/-- The first layer's output. -/
theorem val6 : W6 m ρ c (Proc.devRef .tc main_v28) = layerK true (srcV (W0 m ρ c (Proc.devRef .tc main_arg1))) (dstV (W0 m ρ c (Proc.devRef .tc main_arg1))) (W0 m ρ c (Proc.devRef .tc main_arg0)) (W0 m ρ c (Proc.devRef .tc main_arg3)) (W0 m ρ c (Proc.devRef .tc main_arg4)) := by
  refine (W6_arr m ρ c 3).trans ?_
  rw [GcnPost.final1 (V5 m ρ) c]
  show GPost true (W5 m ρ c (Proc.devRef .tc main_v26)) (W5 m ρ c (Proc.devRef .tc main_v15))
    (W5 m ρ c (Proc.devRef .tc main_v27)) = _
  have hagg : W5 m ρ c (Proc.devRef .tc main_v26)
      = aggK (W4 m ρ c (Proc.devRef .tc main_v5)) (W4 m ρ c (Proc.devRef .tc main_v6)) _ := (stretch1 (W4 m ρ c)).1
  have hrow : W5 m ρ c (Proc.devRef .tc main_v27) = shapeCast Gcn.S1x128 _ _ := (stretch1 (W4 m ρ c)).2.1
  rw [hagg, hrow, at5 m ρ c main_v15 (by simp [kept]),
    at4 m ρ c main_v5 (by simp [kept]), at4 m ρ c main_v6 (by simp [kept]), at4 m ρ c main_arg4 (by simp [kept]),
    entry_src m ρ c, entry_dst m ρ c, entry_scale m ρ c, entry_arg m ρ c main_arg4 (by simp [args]), val4 m ρ c]
  rfl

/-- After the third region: the second layer's scaled product. -/
theorem val7 : W7 m ρ c (Proc.devRef .tc main_v29)
    = GLin (layerK true (srcV (W0 m ρ c (Proc.devRef .tc main_arg1))) (dstV (W0 m ρ c (Proc.devRef .tc main_arg1))) (W0 m ρ c (Proc.devRef .tc main_arg0)) (W0 m ρ c (Proc.devRef .tc main_arg3)) (W0 m ρ c (Proc.devRef .tc main_arg4))) (W0 m ρ c (Proc.devRef .tc main_arg5)) (dcolV (dstV (W0 m ρ c (Proc.devRef .tc main_arg1)))) := by
  refine (W7_arr m ρ c 3).trans ?_
  rw [GcnLin.final2 (V6 m ρ) c]
  show GLin (W6 m ρ c (Proc.devRef .tc main_v28)) (W6 m ρ c (Proc.devRef .tc main_arg5))
    (W6 m ρ c (Proc.devRef .tc main_v15)) = _
  rw [val6 m ρ c, at6 m ρ c main_arg5 (by simp [kept]), at6 m ρ c main_v15 (by simp [kept]),
    entry_arg m ρ c main_arg5 (by simp [args]), entry_scale m ρ c]

/-- The second layer's output. -/
theorem val9 : W9 m ρ c (Proc.devRef .tc main_v41)
    = layerK true (srcV (W0 m ρ c (Proc.devRef .tc main_arg1))) (dstV (W0 m ρ c (Proc.devRef .tc main_arg1))) (layerK true (srcV (W0 m ρ c (Proc.devRef .tc main_arg1))) (dstV (W0 m ρ c (Proc.devRef .tc main_arg1))) (W0 m ρ c (Proc.devRef .tc main_arg0)) (W0 m ρ c (Proc.devRef .tc main_arg3)) (W0 m ρ c (Proc.devRef .tc main_arg4))) (W0 m ρ c (Proc.devRef .tc main_arg5)) (W0 m ρ c (Proc.devRef .tc main_arg6)) := by
  refine (W9_arr m ρ c 3).trans ?_
  rw [GcnPost.final3 (V8 m ρ) c]
  show GPost true (W8 m ρ c (Proc.devRef .tc main_v39)) (W8 m ρ c (Proc.devRef .tc main_v15))
    (W8 m ρ c (Proc.devRef .tc main_v40)) = _
  have hagg : W8 m ρ c (Proc.devRef .tc main_v39)
      = aggK (W7 m ρ c (Proc.devRef .tc main_v5)) (W7 m ρ c (Proc.devRef .tc main_v6)) _ := (stretch3 (W7 m ρ c)).1
  have hrow : W8 m ρ c (Proc.devRef .tc main_v40) = shapeCast Gcn.S1x128 _ _ := (stretch3 (W7 m ρ c)).2.1
  rw [hagg, hrow, at8 m ρ c main_v15 (by simp [kept]),
    at7 m ρ c main_v5 (by simp [kept]), at7 m ρ c main_v6 (by simp [kept]), at7 m ρ c main_arg6 (by simp [kept]),
    entry_src m ρ c, entry_dst m ρ c, entry_scale m ρ c, entry_arg m ρ c main_arg6 (by simp [args]), val7 m ρ c]
  rfl

/-- After the fifth region: the third layer's scaled product. -/
theorem val10 : W10 m ρ c (Proc.devRef .tc main_v42)
    = GLin (layerK true (srcV (W0 m ρ c (Proc.devRef .tc main_arg1))) (dstV (W0 m ρ c (Proc.devRef .tc main_arg1))) (layerK true (srcV (W0 m ρ c (Proc.devRef .tc main_arg1))) (dstV (W0 m ρ c (Proc.devRef .tc main_arg1))) (W0 m ρ c (Proc.devRef .tc main_arg0)) (W0 m ρ c (Proc.devRef .tc main_arg3)) (W0 m ρ c (Proc.devRef .tc main_arg4))) (W0 m ρ c (Proc.devRef .tc main_arg5)) (W0 m ρ c (Proc.devRef .tc main_arg6))) (W0 m ρ c (Proc.devRef .tc main_arg7)) (dcolV (dstV (W0 m ρ c (Proc.devRef .tc main_arg1)))) := by
  refine (W10_arr m ρ c 3).trans ?_
  rw [GcnLin.final4 (V9 m ρ) c]
  show GLin (W9 m ρ c (Proc.devRef .tc main_v41)) (W9 m ρ c (Proc.devRef .tc main_arg7))
    (W9 m ρ c (Proc.devRef .tc main_v15)) = _
  rw [val9 m ρ c, at9 m ρ c main_arg7 (by simp [kept]), at9 m ρ c main_v15 (by simp [kept]),
    entry_arg m ρ c main_arg7 (by simp [args]), entry_scale m ρ c]

/-- The third layer's output. -/
theorem val12 : W12 m ρ c (Proc.devRef .tc main_v54)
    = layerK false (srcV (W0 m ρ c (Proc.devRef .tc main_arg1))) (dstV (W0 m ρ c (Proc.devRef .tc main_arg1)))
        (layerK true (srcV (W0 m ρ c (Proc.devRef .tc main_arg1))) (dstV (W0 m ρ c (Proc.devRef .tc main_arg1))) (layerK true (srcV (W0 m ρ c (Proc.devRef .tc main_arg1))) (dstV (W0 m ρ c (Proc.devRef .tc main_arg1))) (W0 m ρ c (Proc.devRef .tc main_arg0)) (W0 m ρ c (Proc.devRef .tc main_arg3)) (W0 m ρ c (Proc.devRef .tc main_arg4))) (W0 m ρ c (Proc.devRef .tc main_arg5)) (W0 m ρ c (Proc.devRef .tc main_arg6))) (W0 m ρ c (Proc.devRef .tc main_arg7)) (W0 m ρ c (Proc.devRef .tc main_arg8)) := by
  refine (W12_arr m ρ c 3).trans ?_
  rw [GcnPost.final5 (V11 m ρ) c]
  show GPost false (W11 m ρ c (Proc.devRef .tc main_v52)) (W11 m ρ c (Proc.devRef .tc main_v15))
    (W11 m ρ c (Proc.devRef .tc main_v53)) = _
  have hagg : W11 m ρ c (Proc.devRef .tc main_v52)
      = aggK (W10 m ρ c (Proc.devRef .tc main_v5)) (W10 m ρ c (Proc.devRef .tc main_v6)) _ := (stretch5 (W10 m ρ c)).1
  have hrow : W11 m ρ c (Proc.devRef .tc main_v53) = shapeCast Gcn.S1x128 _ _ := (stretch5 (W10 m ρ c)).2.1
  rw [hagg, hrow, at11 m ρ c main_v15 (by simp [kept]),
    at10 m ρ c main_v5 (by simp [kept]), at10 m ρ c main_v6 (by simp [kept]), at10 m ρ c main_arg8 (by simp [kept]),
    entry_src m ρ c, entry_dst m ρ c, entry_scale m ρ c, entry_arg m ρ c main_arg8 (by simp [args]), val10 m ρ c]
  rfl

/-- The launch contents of a buffer are the launch memory's. -/
theorem launch_arg (b : Ref sig .tc) : W0 m ρ c (Proc.devRef .tc b) = m ((c.tc : Thread nD τ).loc b) := rfl

/-- The result buffer at the last boundary: the mean pool of three kernel-side layers of the launch contents. -/
theorem result_at_launch : W13 m ρ c (Proc.devRef .tc main_v65)
    = resultK (W0 m ρ c (Proc.devRef .tc main_arg0)) (W0 m ρ c (Proc.devRef .tc main_arg1))
        (W0 m ρ c (Proc.devRef .tc main_arg2)) (W0 m ρ c (Proc.devRef .tc main_arg3))
        (W0 m ρ c (Proc.devRef .tc main_arg4)) (W0 m ρ c (Proc.devRef .tc main_arg5))
        (W0 m ρ c (Proc.devRef .tc main_arg6)) (W0 m ρ c (Proc.devRef .tc main_arg7))
        (W0 m ρ c (Proc.devRef .tc main_arg8)) := by
  refine (stretch6 (W12 m ρ c)).trans ?_
  rw [val12 m ρ c, at12 m ρ c main_arg2 (by simp [kept]), entry_arg m ρ c main_arg2 (by simp [args])]
  unfold resultK
  rfl

/-- THE RESULT: the mean pool of three kernel-side layers of the arguments as launched. -/
theorem result_eq : W13 m ρ c (Proc.devRef .tc main_v65)
    = resultK (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) := by
  refine (result_at_launch m ρ c).trans ?_
  rw [launch_arg m ρ c main_arg0, launch_arg m ρ c main_arg1, launch_arg m ρ c main_arg2, launch_arg m ρ c main_arg3,
    launch_arg m ρ c main_arg4, launch_arg m ρ c main_arg5, launch_arg m ρ c main_arg6, launch_arg m ρ c main_arg7,
    launch_arg m ρ c main_arg8]

end Cert.KernelIdeal.GcnWalk

end
-- ==== Proof.RefArgs.lean ====
/-
  The reference's operations write none of its arguments: through the fold of the 119 operations over the launch
  contents, each argument buffer keeps what it was launched with.
-/
import proofs.«139671_j85933705658442_1_alg».proof.Proof.RefRunRaw
import Idealize.ShloMosaic.Lib.StableHlo.Run

set_option maxRecDepth 16384

noncomputable section

namespace Cert.ReferenceIdeal.GcnRefArgs

open Idealize.ShloMosaic Idealize.ShloMosaic.TcCoe Idealize.ShloMosaic.StableHlo
open Cert.ReferenceIdeal Cert.ReferenceIdeal.Gen

variable {F : FTy → Type} [FloatOps F]

/-- The nine arguments. -/
def args : List (Ref sig .tc) :=
  [main_arg0, main_arg1, main_arg2, main_arg3, main_arg4, main_arg5, main_arg6, main_arg7, main_arg8]

/-- An operation whose one written buffer is none of the arguments writes no argument. -/
private theorem writes_no_arg {op : HloOp τ sig (Elt F)} {y : Ref sig .tc}
    (hw : op.writes = {Proc.devRef .tc y}) (h : ∀ b ∈ args, b ≠ y) :
    ∀ b ∈ args, Proc.devRef (τ := τ) .tc b ∉ op.writes := by
  intro b hb hm
  rw [hw, Finset.mem_singleton] at hm
  exact devRef_ne_of_ne (h b hb) hm

set_option maxHeartbeats 16000000 in
/-- Each of the 119 operations writes exactly its result buffer, and no result buffer is an argument. -/
theorem ops_write_no_arg :
    (Cert.ReferenceIdeal.GcnRefRun.ops (F := F)).Forall fun op => ∀ b ∈ args, Proc.devRef (τ := τ) .tc b ∉ op.writes := by
  repeat' apply And.intro
  all_goals exact writes_no_arg rfl (by decide)

/-- No operation writes an argument, so from ANY contents `V` the fold leaves each argument at `V`'s. -/
theorem arg_kept (V : Valuation τ sig (Elt F)) (b : Ref sig .tc) (hb : b ∈ args) :
    StableHlo.after (Cert.ReferenceIdeal.GcnRefRun.ops (F := F)) V (Proc.devRef .tc b) = V (Proc.devRef .tc b) := by
  exact after_of_forall_not_mem _ V fun op hop => List.forall_iff_forall_mem.mp ops_write_no_arg op hop b hb

end Cert.ReferenceIdeal.GcnRefArgs

end
-- ==== Proof.RefTail.lean ====
/-
  The reference's last three stretches, each read as its operations' terms of the contents before it: the second
  and the third layer (product, gather at the sources, per-edge weight, aggregation, bias, and the clip for the
  second), and the mean pool.
-/
import proofs.«139671_j85933705658442_1_alg».proof.Proof.RefRunRaw
import proofs.«139671_j85933705658442_1_alg».proof.Proof.SpecOps
import Idealize.ShloMosaic.Lib.StableHlo.Run

set_option maxRecDepth 16384

noncomputable section

namespace Cert.ReferenceIdeal.GcnRefTail

open Idealize.ShloMosaic Idealize.ShloMosaic.TcCoe Idealize.ShloMosaic.StableHlo
open Cert.ReferenceIdeal Cert.ReferenceIdeal.Gen Cert.Gcn

/-- What the later stretches still read: the two edge lists, the per-edge weight column, the graph ids and the
    later layers' weights and biases. -/
def kept : List (Ref sig .tc) :=
  [main_v3, main_v6, main_v30, main_arg2, main_arg5, main_arg6, main_arg7, main_arg8]

section Lists

variable {F : FTy → Type} [FloatOps F]

/-- The second layer's first 19 operations, for any float values: the product with the weights, the normalised source positions as a column, the rows gathered there, the per-edge weight laid along the rows, the aggregation per destination, and the bias. -/
abbrev opsL2linAt : List (HloOp τ sig (Elt F)) :=
  [ binary main_v47 main_arg5 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v56 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v56 main_v57 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v58 (broadcastInDim S100000x128 ![] bcast_S_S100000x128 : (⟨S_, .f32⟩ : BufTy).Contents (Elt F) → (⟨S100000x128, .f32⟩ : BufTy).Contents (Elt F)),
    unary main_v6 main_v59 (broadcastInDim S1700000x1 ![0] bcast_S1700000_S1700000x1_0 : (⟨S1700000, .i32⟩ : BufTy).Contents (Elt F) → (⟨S1700000x1, .i32⟩ : BufTy).Contents (Elt F)),
    ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- The second layer's last 3 operations, for any float values: the clip at zero (the maximum with the zero table). -/
abbrev opsL2clipAt : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v63) (TRef.of (T := ⟨S100000x128, .f32⟩) main_call2_v0) (TRef.of (T := ⟨S100000x128, .f32⟩) main_v64) maximumf ]

/-- The second layer's 22 operations, for any float values: the 19 up to the bias, then the clip's 3. -/
abbrev opsL2At : List (HloOp τ sig (Elt F)) := opsL2linAt ++ opsL2clipAt

/-- The third layer's 19 operations, for any float values: the same without the clip. -/
abbrev opsL3At : List (HloOp τ sig (Elt F)) :=
  [ binary main_v64 main_arg7 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v66 (broadcastInDim S1700000 ![] bcast_S_S1700000 : (⟨S_, .i32⟩ : BufTy).Contents (Elt F) → (⟨S1700000, .i32⟩ : BufTy).Contents (Elt F)),
    binary main_v3 main_v66 main_v67 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v68 (broadcastInDim S1700000 ![] bcast_S_S1700000 : (⟨S_, .i32⟩ : BufTy).Contents (Elt F) → (⟨S1700000, .i32⟩ : BufTy).Contents (Elt F)),
    binary main_v3 main_v68 main_v69 (addi : (⟨S1700000, .i32⟩ : BufTy).Contents (Elt F) → (⟨S1700000, .i32⟩ : BufTy).Contents (Elt F) → (⟨S1700000, .i32⟩ : BufTy).Contents (Elt F)),
    ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v70 main_v71 (broadcastInDim S1700000x1 ![0] bcast_S1700000_S1700000x1_0 : (⟨S1700000, .i32⟩ : BufTy).Contents (Elt F) → (⟨S1700000x1, .i32⟩ : BufTy).Contents (Elt F)),
    binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v73 (broadcastInDim S1700000x128 ![0, 1] bcast_S1700000x1_S1700000x128_0_1 : (⟨S1700000x1, .f32⟩ : BufTy).Contents (Elt F) → (⟨S1700000x128, .f32⟩ : BufTy).Contents (Elt F)),
    binary main_v72 main_v73 main_v74 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v75 (broadcastInDim S100000x128 ![] bcast_S_S100000x128 : (⟨S_, .f32⟩ : BufTy).Contents (Elt F) → (⟨S100000x128, .f32⟩ : BufTy).Contents (Elt F)),
    unary main_v6 main_v76 (broadcastInDim S1700000x1 ![0] bcast_S1700000_S1700000x1_0 : (⟨S1700000, .i32⟩ : BufTy).Contents (Elt F) → (⟨S1700000x1, .i32⟩ : BufTy).Contents (Elt F)),
    ternary main_v75 main_v76 main_v74 main_v77 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v78 (broadcastInDim S1x128 ![1] bcast_S128_S1x128_1 : (⟨S128, .f32⟩ : BufTy).Contents (Elt F) → (⟨S1x128, .f32⟩ : BufTy).Contents (Elt F)),
    unary main_v78 main_v79 (broadcastInDim S100000x128 ![0, 1] bcast_S1x128_S100000x128_0_1 : (⟨S1x128, .f32⟩ : BufTy).Contents (Elt F) → (⟨S100000x128, .f32⟩ : BufTy).Contents (Elt F)),
    binary main_v77 main_v79 main_v80 (addf : (⟨S100000x128, .f32⟩ : BufTy).Contents (Elt F) → (⟨S100000x128, .f32⟩ : BufTy).Contents (Elt F) → (⟨S100000x128, .f32⟩ : BufTy).Contents (Elt F)) ]

/-- The mean pool's 15 operations, for any float values: the per-graph sums of the node rows over the per-graph node counts (at least one). -/
abbrev opsPAt : List (HloOp τ sig (Elt F)) :=
  [ nullary main_cst_15 (constant S_ .f32 0x00000000#32),
    unary main_cst_15 main_v81 (broadcastInDim S2048x128 ![] bcast_S_S2048x128 : (⟨S_, .f32⟩ : BufTy).Contents (Elt F) → (⟨S2048x128, .f32⟩ : BufTy).Contents (Elt F)),
    unary main_arg2 main_v82 (broadcastInDim S100000x1 ![0] bcast_S100000_S100000x1_0 : (⟨S100000, .i32⟩ : BufTy).Contents (Elt F) → (⟨S100000x1, .i32⟩ : BufTy).Contents (Elt F)),
    ternary main_v81 main_v82 main_v80 main_v83 ((fun x i u => Host.scatterAdd scatter_S2048x128_S100000x1_S100000x128_1_0_0_1 x i u) : (⟨S2048x128, .f32⟩ : BufTy).Contents (Elt F) → (⟨S100000x1, .i32⟩ : BufTy).Contents (Elt F) → (⟨S100000x128, .f32⟩ : BufTy).Contents (Elt F) → (⟨S2048x128, .f32⟩ : BufTy).Contents (Elt F)),
    nullary main_cst_16 (constant S_ .f32 0x3F800000#32),
    unary main_cst_16 main_v84 (broadcastInDim S100000x1 ![] bcast_S_S100000x1 : (⟨S_, .f32⟩ : BufTy).Contents (Elt F) → (⟨S100000x1, .f32⟩ : BufTy).Contents (Elt F)),
    nullary main_cst_17 (constant S_ .f32 0x00000000#32),
    unary main_cst_17 main_v85 (broadcastInDim S2048x1 ![] bcast_S_S2048x1 : (⟨S_, .f32⟩ : BufTy).Contents (Elt F) → (⟨S2048x1, .f32⟩ : BufTy).Contents (Elt F)),
    unary main_arg2 main_v86 (broadcastInDim S100000x1 ![0] bcast_S100000_S100000x1_0 : (⟨S100000, .i32⟩ : BufTy).Contents (Elt F) → (⟨S100000x1, .i32⟩ : BufTy).Contents (Elt F)),
    ternary main_v85 main_v86 main_v84 main_v87 ((fun x i u => Host.scatterAdd scatter_S2048x1_S100000x1_S100000x1_1_0_0_1 x i u) : (⟨S2048x1, .f32⟩ : BufTy).Contents (Elt F) → (⟨S100000x1, .i32⟩ : BufTy).Contents (Elt F) → (⟨S100000x1, .f32⟩ : BufTy).Contents (Elt F) → (⟨S2048x1, .f32⟩ : BufTy).Contents (Elt F)),
    nullary main_cst_18 (constant S_ .f32 0x3F800000#32),
    unary main_cst_18 main_v88 (broadcastInDim S2048x1 ![] bcast_S_S2048x1 : (⟨S_, .f32⟩ : BufTy).Contents (Elt F) → (⟨S2048x1, .f32⟩ : BufTy).Contents (Elt F)),
    binary main_v87 main_v88 main_v89 (maximumf : (⟨S2048x1, .f32⟩ : BufTy).Contents (Elt F) → (⟨S2048x1, .f32⟩ : BufTy).Contents (Elt F) → (⟨S2048x1, .f32⟩ : BufTy).Contents (Elt F)),
    unary main_v89 main_v90 (broadcastInDim S2048x128 ![0, 1] bcast_S2048x1_S2048x128_0_1 : (⟨S2048x1, .f32⟩ : BufTy).Contents (Elt F) → (⟨S2048x128, .f32⟩ : BufTy).Contents (Elt F)),
    binary main_v83 main_v90 main_v91 (Host.divf : (⟨S2048x128, .f32⟩ : BufTy).Contents (Elt F) → (⟨S2048x128, .f32⟩ : BufTy).Contents (Elt F) → (⟨S2048x128, .f32⟩ : BufTy).Contents (Elt F)) ]

end Lists

/-- The second layer's first 19 operations at the ideal values. -/
abbrev opsL2lin : List (HloOp τ sig (Elt Ideal)) := opsL2linAt
/-- The second layer's clip at the ideal values. -/
abbrev opsL2clip : List (HloOp τ sig (Elt Ideal)) := opsL2clipAt
/-- The second layer's 22 operations at the ideal values. -/
abbrev opsL2 : List (HloOp τ sig (Elt Ideal)) := opsL2At
/-- The third layer's 19 operations at the ideal values. -/
abbrev opsL3 : List (HloOp τ sig (Elt Ideal)) := opsL3At
/-- The mean pool's 15 operations at the ideal values. -/
abbrev opsP : List (HloOp τ sig (Elt Ideal)) := opsPAt

variable (V : Valuation τ sig (Elt Ideal))

/-- A line each of whose operations writes one buffer, none of them in the list `K`, leaves every buffer of `K`
    as it was. -/
private theorem kept_of_writes {K : List (Ref sig .tc)} (ops : List (HloOp τ sig (Elt Ideal)))
    (W : Valuation τ sig (Elt Ideal))
    (h : ops.Forall fun op => ∃ y : Ref sig .tc, op.writes = {Proc.devRef (τ := τ) .tc y} ∧ y ∉ K) :
    ∀ b ∈ K, StableHlo.after ops W (Proc.devRef .tc b) = W (Proc.devRef .tc b) := by
  intro b hb
  refine after_of_forall_not_mem ops W fun op hop hm => ?_
  obtain ⟨y, hw, hy⟩ := List.forall_iff_forall_mem.mp h op hop
  rw [hw, Finset.mem_singleton] at hm
  exact hy (Proc.devRef_injective _ hm ▸ hb)

/-- The fold over two lines in a row is the fold over the second from the fold over the first. -/
private theorem after_app : ∀ (l₁ l₂ : List (HloOp τ sig (Elt Ideal))) (W : Valuation τ sig (Elt Ideal)),
    StableHlo.after (l₁ ++ l₂) W = StableHlo.after l₂ (StableHlo.after l₁ W)
  | [], _, _ => rfl
  | op :: l₁, l₂, W => by rw [List.cons_append, after_cons, after_cons, after_app l₁ l₂]

set_option maxHeartbeats 16000000 in
/-- The second layer up to the bias: the sum of the bias and the aggregation, per destination, of the product's rows
    gathered at the sources and weighted per edge; the buffers later stretches read are left as they were. -/
theorem layer2_lin :
    StableHlo.after opsL2lin V (Proc.devRef .tc main_v63)
      = addf (Host.scatterAdd sd2 zeroT (colI (V (Proc.devRef .tc main_v6)))
          (mulf (Host.gather gd2 (Host.dotGeneral (φ₁ := .f32) (φ₂ := .f32) (DotDims.plain 100000 128 128) none (V (Proc.devRef .tc main_v47)) (V (Proc.devRef .tc main_arg5))) (colI (normI (V (Proc.devRef .tc main_v3)))))
            (broadcastInDim Gcn.S1700000x128 ![0, 1] (by decide) (V (Proc.devRef .tc main_v30)))))
          (biasT (V (Proc.devRef .tc main_arg6)))
    ∧ ∀ b ∈ kept, StableHlo.after opsL2lin V (Proc.devRef .tc b) = V (Proc.devRef .tc b) := by
  refine ⟨?_, ?_⟩
  · after_results; first | done | rfl
  · refine kept_of_writes opsL2lin V ?_
    repeat' apply And.intro
    all_goals exact ⟨_, rfl, by decide⟩

set_option maxHeartbeats 16000000 in
/-- The second layer's clip: the maximum of what was there with the zero table; the buffers later stretches read are
    left as they were. -/
theorem layer2_clip :
    StableHlo.after opsL2clip V (Proc.devRef .tc main_v64) = reluT (V (Proc.devRef .tc main_v63))
    ∧ ∀ b ∈ kept, StableHlo.after opsL2clip V (Proc.devRef .tc b) = V (Proc.devRef .tc b) := by
  refine ⟨?_, ?_⟩
  · after_results; first | done | rfl
  · refine kept_of_writes opsL2clip V ?_
    repeat' apply And.intro
    all_goals exact ⟨_, rfl, by decide⟩

set_option maxHeartbeats 16000000 in
/-- The second layer: the clipped sum of the bias and the aggregation, per destination, of the product's rows gathered
    at the sources and weighted per edge; the buffers later stretches read are left as they were. -/
theorem layer2 :
    StableHlo.after opsL2 V (Proc.devRef .tc main_v64)
      = reluT (addf (Host.scatterAdd sd2 zeroT (colI (V (Proc.devRef .tc main_v6)))
          (mulf (Host.gather gd2 (Host.dotGeneral (φ₁ := .f32) (φ₂ := .f32) (DotDims.plain 100000 128 128) none (V (Proc.devRef .tc main_v47)) (V (Proc.devRef .tc main_arg5))) (colI (normI (V (Proc.devRef .tc main_v3)))))
            (broadcastInDim Gcn.S1700000x128 ![0, 1] (by decide) (V (Proc.devRef .tc main_v30)))))
          (biasT (V (Proc.devRef .tc main_arg6))))
    ∧ ∀ b ∈ kept, StableHlo.after opsL2 V (Proc.devRef .tc b) = V (Proc.devRef .tc b) := by
  -- the 22 operations are the 19 up to the bias, then the clip's 3
  have happ : StableHlo.after opsL2 V = StableHlo.after opsL2clip (StableHlo.after opsL2lin V) :=
    after_app opsL2lin opsL2clip V
  have hl := layer2_lin V
  have hc := layer2_clip (StableHlo.after opsL2lin V)
  refine ⟨?_, ?_⟩
  · rw [happ, hc.1, hl.1]
  · intro b hb
    rw [happ, hc.2 b hb, hl.2 b hb]

set_option maxHeartbeats 16000000 in
/-- The third layer: the same sum without the clip; the buffers later stretches read are left as they were. -/
theorem layer3 :
    StableHlo.after opsL3 V (Proc.devRef .tc main_v80)
      = addf (Host.scatterAdd sd2 zeroT (colI (V (Proc.devRef .tc main_v6)))
          (mulf (Host.gather gd2 (Host.dotGeneral (φ₁ := .f32) (φ₂ := .f32) (DotDims.plain 100000 128 128) none (V (Proc.devRef .tc main_v64)) (V (Proc.devRef .tc main_arg7))) (colI (normI (V (Proc.devRef .tc main_v3)))))
            (broadcastInDim Gcn.S1700000x128 ![0, 1] (by decide) (V (Proc.devRef .tc main_v30)))))
          (biasT (V (Proc.devRef .tc main_arg8)))
    ∧ ∀ b ∈ kept, StableHlo.after opsL3 V (Proc.devRef .tc b) = V (Proc.devRef .tc b) := by
  refine ⟨?_, ?_⟩
  · after_results; first | done | rfl
  · refine kept_of_writes opsL3 V ?_
    repeat' apply And.intro
    all_goals exact ⟨_, rfl, by decide⟩

set_option maxHeartbeats 16000000 in
/-- The mean pool of the last layer's rows over the graph ids. -/
theorem pool :
    StableHlo.after opsP V (Proc.devRef .tc main_v91) = poolV (V (Proc.devRef .tc main_arg2)) (V (Proc.devRef .tc main_v80)) := by
  after_results; first | done | rfl

end Cert.ReferenceIdeal.GcnRefTail

end
-- ==== Proof.RefValue.lean ====
/-
  The reference's result as ONE function of its arguments, at the ideal values: the mean pool of three
  `layerR` layers. The reference's operations, composed, are that function term by term: the edge lists, the
  degree count, the guarded reciprocal square root, then per layer the product, the gather at the sources, the
  per-edge weight, the aggregation, the bias and the clip, and at the end the mean pool.

  The 119 operations are read in nine stretches. From ANY buffer contents a stretch leaves the buffer it is read
  at as its operations' composed term of those contents, and the buffers later stretches read as they were. Two
  facts about the contents are then carried through the layers: the two edge lists and the per-edge weight column
  are the named ones of the launch's edge table, and the arguments are the launch's.
-/
import proofs.«139671_j85933705658442_1_alg».proof.Proof.RefRunRaw
import proofs.«139671_j85933705658442_1_alg».proof.Proof.RefArgs
import proofs.«139671_j85933705658442_1_alg».proof.Proof.RefTail
import proofs.«139671_j85933705658442_1_alg».proof.Proof.SpecOps
import Idealize.ShloMosaic.Lib.StableHlo.Run
import Idealize.ShloMosaic.Lib.Pipeline.Frame

set_option maxRecDepth 16384

noncomputable section

namespace Cert.ReferenceIdeal.GcnRef

open Idealize.ShloMosaic Idealize.ShloMosaic.TcCoe Idealize.SL.Sem Idealize.ShloMosaic.StableHlo
open Cert.ReferenceIdeal Cert.ReferenceIdeal.Gen

/-! ## The first six stretches

The operations up to layer 1's result, in order, as literal sublists. Each call of a module-local function
(the guarded select's fallback, the clip) is a stretch of its own. -/

section Stretches
variable {F : FTy → Type} [FloatOps F]

/-- The edge lists: each row of the edge table, flattened, followed by the self loops. -/
abbrev opsEdges : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The in-degree, its test against zero and its reciprocal square root, and the zero the guard falls back to. -/
abbrev opsDegree : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The guarded scale: the root where the degree is positive, zero elsewhere. -/
abbrev opsScale : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The per-edge weight: the scale at the normalised source times the scale at the normalised destination. -/
abbrev opsWeight : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)) ]

/-- Layer 1 up to the bias: product, gather at the sources, per-edge weight, sum per destination, bias. -/
abbrev opsLayer1 : List (HloOp τ sig (Elt F)) :=
  [ binary main_arg0 main_arg3 main_v31 ((fun l r => Host.dotGeneral dot_S100000x26_S26x128_S100000x128_1_0_0_1_n_n none l r) : (⟨S100000x26, .f32⟩ : BufTy).Contents (Elt F) → (⟨S26x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Layer 1's clip at zero. -/
abbrev opsClip1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

end Stretches

open Cert.Gcn

/-! ## The per-edge weight and a layer over a given weight column

The reference computes the per-edge weight once and reads it in every layer; these name a layer over whatever
column stands there, and say that over the weight column itself it is the reference-side layer. -/

/-- The per-edge weight over a given scale vector. -/
def weightOf (d : FVec Ideal Gcn.S100000 .f32) (src dst : IVec Gcn.S1700000 32) : FVec Ideal Gcn.S1700000x1 .f32 :=
  broadcastInDim Gcn.S1700000x1 ![0] (by decide)
    (mulf (Host.gather gd1 d (colI (normI src))) (Host.gather gd1 d (colI (normI dst))))

theorem weightOf_dinv (src dst : IVec Gcn.S1700000 32) : weightOf (dinvV dst) src dst = normV src dst := rfl

/-- The aggregation over a given weight column. -/
def aggW (src dst : IVec Gcn.S1700000 32) (w : FVec Ideal Gcn.S1700000x1 .f32) (hw : FVec Ideal Gcn.S100000x128 .f32) :
    FVec Ideal Gcn.S100000x128 .f32 :=
  Host.scatterAdd sd2 zeroT (colI dst)
    (mulf (Host.gather gd2 hw (colI (normI src))) (broadcastInDim Gcn.S1700000x128 ![0, 1] (by decide) w))

theorem aggW_norm (src dst : IVec Gcn.S1700000 32) (hw : FVec Ideal Gcn.S100000x128 .f32) :
    aggW src dst (normV src dst) hw = aggR src dst hw := rfl

/-! ## Each stretch read from any contents -/

/-- The arguments: no operation writes one. -/
def args : List (Ref sig .tc) :=
  [main_arg0, main_arg1, main_arg2, main_arg3, main_arg4, main_arg5, main_arg6, main_arg7, main_arg8]

/-- The arguments and the two edge lists. -/
def keptE : List (Ref sig .tc) := main_v3 :: main_v6 :: args

/-- The arguments, the two edge lists and the weight column. -/
def keptW : List (Ref sig .tc) := main_v30 :: main_v3 :: main_v6 :: args

/-- A stretch whose operations each write one buffer, none of them in `K`, leaves every buffer of `K` as it was. -/
theorem kept_of_writes {K : List (Ref sig .tc)} (ops : List (HloOp τ sig (Elt Ideal)))
    (h : ops.Forall fun op => ∃ y : Ref sig .tc, op.writes = {Proc.devRef (τ := τ) .tc y} ∧ y ∉ K)
    (V : Valuation τ sig (Elt Ideal)) :
    ∀ b ∈ K, after ops V (Proc.devRef .tc b) = V (Proc.devRef .tc b) := by
  intro b hb
  refine after_of_forall_not_mem ops V fun op hop hm => ?_
  obtain ⟨y, hw, hy⟩ := List.forall_iff_forall_mem.mp h op hop
  rw [hw, Finset.mem_singleton] at hm
  have e : b = y := Proc.devRef_injective _ hm
  exact hy (e ▸ hb)

variable (V : Valuation τ sig (Elt Ideal))

set_option maxHeartbeats 16000000 in
/-- The edge lists, from the edge table. -/
theorem edges_read :
    after opsEdges V (Proc.devRef .tc main_v3) = srcV (V (Proc.devRef .tc main_arg1))
    ∧ after opsEdges V (Proc.devRef .tc main_v6) = dstV (V (Proc.devRef .tc main_arg1))
    ∧ ∀ b ∈ args, after opsEdges V (Proc.devRef .tc b) = V (Proc.devRef .tc b) := by
  refine ⟨?_, ?_, ?_⟩
  · after_results; first | done | rfl
  · after_results; first | done | rfl
  · refine kept_of_writes (K := args) opsEdges ?_ V
    repeat' apply And.intro
    all_goals exact ⟨_, rfl, by decide⟩

set_option maxHeartbeats 16000000 in
/-- The degree's test and root, from the destination list, and the fallback zero. -/
theorem degree_read :
    after opsDegree V (Proc.devRef .tc main_v12) = cmpf .ogt (degV (V (Proc.devRef .tc main_v6))) (broadcastInDim Gcn.S100000 ![] (by decide) (constant (F := Ideal) Gcn.S_ .f32 0x00000000#32))
    ∧ after opsDegree V (Proc.devRef .tc main_v13) = Host.rsqrt (degV (V (Proc.devRef .tc main_v6)))
    ∧ after opsDegree V (Proc.devRef .tc main_cst_2) = constant (F := Ideal) Gcn.S_ .f32 0x00000000#32
    ∧ ∀ b ∈ keptE, after opsDegree V (Proc.devRef .tc b) = V (Proc.devRef .tc b) := by
  refine ⟨?_, ?_, ?_, ?_⟩
  · after_results; first | done | rfl
  · after_results; first | done | rfl
  · after_results; first | done | rfl
  · refine kept_of_writes (K := keptE) opsDegree ?_ V
    repeat' apply And.intro
    all_goals exact ⟨_, rfl, by decide⟩

set_option maxHeartbeats 16000000 in
/-- The guarded select, from the test, the root and the zero. -/
theorem scale_read :
    after opsScale V (Proc.devRef .tc main_v14)
      = select (V (Proc.devRef .tc main_v12)) (V (Proc.devRef .tc main_v13)) (broadcastInDim Gcn.S100000 ![] (by decide) (id (V (Proc.devRef .tc main_cst_2))))
    ∧ ∀ b ∈ keptE, after opsScale V (Proc.devRef .tc b) = V (Proc.devRef .tc b) := by
  refine ⟨?_, ?_⟩
  · after_results; first | done | rfl
  · refine kept_of_writes (K := keptE) opsScale ?_ V
    repeat' apply And.intro
    all_goals exact ⟨_, rfl, by decide⟩

set_option maxHeartbeats 16000000 in
/-- The weight column, from the scale vector and the two edge lists. -/
theorem weight_read :
    after opsWeight V (Proc.devRef .tc main_v30) = weightOf (V (Proc.devRef .tc main_v14)) (V (Proc.devRef .tc main_v3)) (V (Proc.devRef .tc main_v6))
    ∧ ∀ b ∈ keptE, after opsWeight V (Proc.devRef .tc b) = V (Proc.devRef .tc b) := by
  refine ⟨?_, ?_⟩
  · after_results; first | done | rfl
  · refine kept_of_writes (K := keptE) opsWeight ?_ V
    repeat' apply And.intro
    all_goals exact ⟨_, rfl, by decide⟩

set_option maxHeartbeats 16000000 in
/-- Layer 1's rows before the clip, from the features, the weights, the bias, the edge lists and the weight column. -/
theorem layer1_read :
    after opsLayer1 V (Proc.devRef .tc main_v46)
      = addf (aggW (V (Proc.devRef .tc main_v3)) (V (Proc.devRef .tc main_v6)) (V (Proc.devRef .tc main_v30))
          (Host.dotGeneral (φ₁ := .f32) (φ₂ := .f32) (DotDims.plain 100000 26 128) none (V (Proc.devRef .tc main_arg0)) (V (Proc.devRef .tc main_arg3)))) (biasT (V (Proc.devRef .tc main_arg4)))
    ∧ ∀ b ∈ keptW, after opsLayer1 V (Proc.devRef .tc b) = V (Proc.devRef .tc b) := by
  refine ⟨?_, ?_⟩
  · after_results; first | done | rfl
  · refine kept_of_writes (K := keptW) opsLayer1 ?_ V
    repeat' apply And.intro
    all_goals exact ⟨_, rfl, by decide⟩

set_option maxHeartbeats 16000000 in
/-- The clip at zero of the rows before it. -/
theorem clip1_read :
    after opsClip1 V (Proc.devRef .tc main_v47) = reluT (V (Proc.devRef .tc main_v46))
    ∧ ∀ b ∈ keptW, after opsClip1 V (Proc.devRef .tc b) = V (Proc.devRef .tc b) := by
  refine ⟨?_, ?_⟩
  · after_results; first | done | rfl
  · refine kept_of_writes (K := keptW) opsClip1 ?_ V
    repeat' apply And.intro
    all_goals exact ⟨_, rfl, by decide⟩

/-! ## The fold, stretch by stretch -/

/-- What the layers rely on, of contents `W` reached from launch contents `V`: the two edge lists and the weight
    column are the named ones of `V`'s edge table, and the arguments listed in `L` are `V`'s. -/
structure Ready (L : List (Ref sig .tc)) (V W : Valuation τ sig (Elt Ideal)) : Prop where
  src : W (Proc.devRef .tc main_v3) = srcV (V (Proc.devRef .tc main_arg1))
  dst : W (Proc.devRef .tc main_v6) = dstV (V (Proc.devRef .tc main_arg1))
  weight : W (Proc.devRef .tc main_v30) = normV (srcV (V (Proc.devRef .tc main_arg1))) (dstV (V (Proc.devRef .tc main_arg1)))
  arg : ∀ b ∈ L, W (Proc.devRef .tc b) = V (Proc.devRef .tc b)

/-- A stretch that leaves the buffers in `K` alone keeps ready contents ready, for the arguments among `K`. -/
theorem Ready.keep {L K : List (Ref sig .tc)} {V W W' : Valuation τ sig (Elt Ideal)} (h : Ready L V W)
    (hk : ∀ b ∈ K, W' (Proc.devRef .tc b) = W (Proc.devRef .tc b))
    (h3 : main_v3 ∈ K) (h6 : main_v6 ∈ K) (h30 : main_v30 ∈ K) (hL : ∀ b ∈ L, b ∈ K) : Ready L V W' :=
  ⟨(hk _ h3).trans h.src, (hk _ h6).trans h.dst, (hk _ h30).trans h.weight,
    fun b hb => (hk b (hL b hb)).trans (h.arg b hb)⟩

theorem v3_mem_keptW : main_v3 ∈ keptW := List.mem_cons_of_mem _ List.mem_cons_self
theorem v6_mem_keptW : main_v6 ∈ keptW := List.mem_cons_of_mem _ (List.mem_cons_of_mem _ List.mem_cons_self)
theorem v30_mem_keptW : main_v30 ∈ keptW := List.mem_cons_self
theorem args_sub_keptW : ∀ b ∈ args, b ∈ keptW :=
  fun _ hb => List.mem_cons_of_mem _ (List.mem_cons_of_mem _ (List.mem_cons_of_mem _ hb))
theorem args_sub_keptE : ∀ b ∈ args, b ∈ keptE := fun _ hb => List.mem_cons_of_mem _ (List.mem_cons_of_mem _ hb)

/-- The scale vector after the first three stretches. -/
theorem scale_of_edges (V : Valuation τ sig (Elt Ideal)) :
    after opsScale (after opsDegree (after opsEdges V)) (Proc.devRef .tc main_v14) = dinvV (dstV (V (Proc.devRef .tc main_arg1))) := by
  obtain ⟨-, hd, -⟩ := edges_read V
  obtain ⟨h12, h13, hc, -⟩ := degree_read (after opsEdges V)
  obtain ⟨h14, -⟩ := scale_read (after opsDegree (after opsEdges V))
  rw [h14, h12, h13, hc, hd]
  rfl

/-- After the first four stretches the contents are ready. -/
theorem ready_prefix (V : Valuation τ sig (Elt Ideal)) :
    Ready args V (after opsWeight (after opsScale (after opsDegree (after opsEdges V)))) := by
  obtain ⟨hs, hd, ha⟩ := edges_read V
  obtain ⟨-, -, -, hk1⟩ := degree_read (after opsEdges V)
  obtain ⟨-, hk2⟩ := scale_read (after opsDegree (after opsEdges V))
  obtain ⟨hw, hk3⟩ := weight_read (after opsScale (after opsDegree (after opsEdges V)))
  have e3 : after opsScale (after opsDegree (after opsEdges V)) (Proc.devRef .tc main_v3) = srcV (V (Proc.devRef .tc main_arg1)) := by
    rw [hk2 main_v3 List.mem_cons_self, hk1 main_v3 List.mem_cons_self, hs]
  have e6 : after opsScale (after opsDegree (after opsEdges V)) (Proc.devRef .tc main_v6) = dstV (V (Proc.devRef .tc main_arg1)) := by
    rw [hk2 main_v6 (List.mem_cons_of_mem _ List.mem_cons_self), hk1 main_v6 (List.mem_cons_of_mem _ List.mem_cons_self), hd]
  refine ⟨?_, ?_, ?_, ?_⟩
  · rw [hk3 main_v3 List.mem_cons_self, e3]
  · rw [hk3 main_v6 (List.mem_cons_of_mem _ List.mem_cons_self), e6]
  · rw [hw, scale_of_edges V, e3, e6]
    exact weightOf_dinv _ _
  · intro b hb
    rw [hk3 b (args_sub_keptE b hb), hk2 b (args_sub_keptE b hb), hk1 b (args_sub_keptE b hb), ha b hb]

/-- Layer 1 from ready contents: the reference-side layer of the features. -/
theorem layer1_step {V W : Valuation τ sig (Elt Ideal)} (h : Ready args V W) :
    after opsClip1 (after opsLayer1 W) (Proc.devRef .tc main_v47) = layerR true (srcV (V (Proc.devRef .tc main_arg1))) (dstV (V (Proc.devRef .tc main_arg1))) (V (Proc.devRef .tc main_arg0)) (V (Proc.devRef .tc main_arg3)) (V (Proc.devRef .tc main_arg4))
    ∧ Ready args V (after opsClip1 (after opsLayer1 W)) := by
  obtain ⟨h46, hk⟩ := layer1_read W
  obtain ⟨h47, hk'⟩ := clip1_read (after opsLayer1 W)
  refine ⟨?_, (h.keep hk v3_mem_keptW v6_mem_keptW v30_mem_keptW args_sub_keptW).keep hk'
    v3_mem_keptW v6_mem_keptW v30_mem_keptW args_sub_keptW⟩
  rw [h47, h46, h.src, h.dst, h.weight, h.arg main_arg0 (by simp [args]), h.arg main_arg3 (by simp [args]), h.arg main_arg4 (by simp [args])]
  rfl

/-! ## The last three stretches, and the whole fold -/

/-- The arguments the last three stretches still read. -/
def argsT : List (Ref sig .tc) := [main_arg2, main_arg5, main_arg6, main_arg7, main_arg8]

theorem argsT_sub_args : ∀ b ∈ argsT, b ∈ args := by
  intro b hb
  simp only [argsT, List.mem_cons, List.not_mem_nil, or_false] at hb
  rcases hb with rfl | rfl | rfl | rfl | rfl <;> simp [args]

theorem argsT_sub_kept : ∀ b ∈ argsT, b ∈ GcnRefTail.kept := by
  intro b hb
  simp only [argsT, List.mem_cons, List.not_mem_nil, or_false] at hb
  rcases hb with rfl | rfl | rfl | rfl | rfl <;> simp [GcnRefTail.kept]

theorem v3_mem_kept : main_v3 ∈ GcnRefTail.kept := by simp [GcnRefTail.kept]
theorem v6_mem_kept : main_v6 ∈ GcnRefTail.kept := by simp [GcnRefTail.kept]
theorem v30_mem_kept : main_v30 ∈ GcnRefTail.kept := by simp [GcnRefTail.kept]

/-- Ready for all the arguments is ready for those the last stretches read. -/
theorem Ready.tail {V W : Valuation τ sig (Elt Ideal)} (h : Ready args V W) : Ready argsT V W :=
  ⟨h.src, h.dst, h.weight, fun b hb => h.arg b (argsT_sub_args b hb)⟩

/-- Layer 2 from ready contents whose layer-1 rows are `X`. -/
theorem layer2_step {V W : Valuation τ sig (Elt Ideal)} (h : Ready argsT V W) (X : FVec Ideal Gcn.S100000x128 .f32)
    (hx : W (Proc.devRef .tc main_v47) = X) :
    after GcnRefTail.opsL2 W (Proc.devRef .tc main_v64) = layerR true (srcV (V (Proc.devRef .tc main_arg1))) (dstV (V (Proc.devRef .tc main_arg1))) X (V (Proc.devRef .tc main_arg5)) (V (Proc.devRef .tc main_arg6))
    ∧ Ready argsT V (after GcnRefTail.opsL2 W) := by
  obtain ⟨hv, hk⟩ := GcnRefTail.layer2 W
  refine ⟨?_, h.keep hk v3_mem_kept v6_mem_kept v30_mem_kept argsT_sub_kept⟩
  rw [hv, h.src, h.dst, h.weight, hx, h.arg main_arg5 (by simp [argsT]), h.arg main_arg6 (by simp [argsT])]
  rfl

/-- Layer 3 from ready contents whose layer-2 rows are `X`. -/
theorem layer3_step {V W : Valuation τ sig (Elt Ideal)} (h : Ready argsT V W) (X : FVec Ideal Gcn.S100000x128 .f32)
    (hx : W (Proc.devRef .tc main_v64) = X) :
    after GcnRefTail.opsL3 W (Proc.devRef .tc main_v80) = layerR false (srcV (V (Proc.devRef .tc main_arg1))) (dstV (V (Proc.devRef .tc main_arg1))) X (V (Proc.devRef .tc main_arg7)) (V (Proc.devRef .tc main_arg8))
    ∧ Ready argsT V (after GcnRefTail.opsL3 W) := by
  obtain ⟨hv, hk⟩ := GcnRefTail.layer3 W
  refine ⟨?_, h.keep hk v3_mem_kept v6_mem_kept v30_mem_kept argsT_sub_kept⟩
  rw [hv, h.src, h.dst, h.weight, hx, h.arg main_arg7 (by simp [argsT]), h.arg main_arg8 (by simp [argsT])]
  rfl

/-- The nine stretches in order, from any contents: the result buffer ends at the mean pool of three
    reference-side layers of the arguments. -/
theorem fold_read (V : Valuation τ sig (Elt Ideal)) :
    after (opsEdges ++ opsDegree ++ opsScale ++ opsWeight ++ opsLayer1 ++ opsClip1 ++ GcnRefTail.opsL2 ++ GcnRefTail.opsL3 ++ GcnRefTail.opsP) V
        (Proc.devRef .tc main_v91)
      = resultR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [StableHlo.after_append _ GcnRefTail.opsP, StableHlo.after_append _ GcnRefTail.opsL3,
    StableHlo.after_append _ GcnRefTail.opsL2, StableHlo.after_append _ opsClip1, StableHlo.after_append _ opsLayer1,
    StableHlo.after_append _ opsWeight, StableHlo.after_append _ opsScale, StableHlo.after_append opsEdges opsDegree]
  obtain ⟨e1, h1⟩ := layer1_step (ready_prefix V)
  obtain ⟨e2, h2⟩ := layer2_step h1.tail _ e1
  obtain ⟨e3, h3⟩ := layer3_step h2 _ e2
  rw [GcnRefTail.pool, e3, h3.arg main_arg2 (by simp [argsT])]
  rfl

/-- The reference's 119 operations are the nine stretches, in order. -/
theorem ops_split : (GcnRefRun.ops (F := Ideal))
    = opsEdges ++ opsDegree ++ opsScale ++ opsWeight ++ opsLayer1 ++ opsClip1 ++ GcnRefTail.opsL2 ++ GcnRefTail.opsL3 ++ GcnRefTail.opsP := rfl

/-! ## The run -/

variable (m : (ℓ : Loc nD τ sig) → Buf (Elt Ideal) ℓ) (ρ : Dev nD → PrngReg)

/-- The reference's run with its result named as that function. -/
theorem run_named :
    θ_run defs (onTc (τ := τ) (main (F := Ideal))) ⟨m, fun _ => 0, ρ⟩ fun r => ∀ c : Dev nD,
      r.2.mem ((c.tc : Thread nD τ).loc main_v91)
        = resultR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v91).trans ((congrArg (fun l => after l (launchContents m c) (Proc.devRef .tc main_v91)) ops_split).trans
          (fold_read (launchContents m c))),
        (h c main_arg0).trans (GcnRefArgs.arg_kept _ main_arg0 (by simp [GcnRefArgs.args])),
        (h c main_arg1).trans (GcnRefArgs.arg_kept _ main_arg1 (by simp [GcnRefArgs.args])),
        (h c main_arg2).trans (GcnRefArgs.arg_kept _ main_arg2 (by simp [GcnRefArgs.args])),
        (h c main_arg3).trans (GcnRefArgs.arg_kept _ main_arg3 (by simp [GcnRefArgs.args])),
        (h c main_arg4).trans (GcnRefArgs.arg_kept _ main_arg4 (by simp [GcnRefArgs.args])),
        (h c main_arg5).trans (GcnRefArgs.arg_kept _ main_arg5 (by simp [GcnRefArgs.args])),
        (h c main_arg6).trans (GcnRefArgs.arg_kept _ main_arg6 (by simp [GcnRefArgs.args])),
        (h c main_arg7).trans (GcnRefArgs.arg_kept _ main_arg7 (by simp [GcnRefArgs.args])),
        (h c main_arg8).trans (GcnRefArgs.arg_kept _ main_arg8 (by simp [GcnRefArgs.args]))⟩)
    (GcnRefRun.run_raw (F := Ideal) m ρ)

end Cert.ReferenceIdeal.GcnRef

end
-- ==== Proof.GatherScatter.lean ====
/-
  Reading a row gather and a row scatter at an index, for any extents.

  * A gather of whole rows of a table [N, D] at a column [n, 1] of start positions: result row p is table row
    clamp(start p), the start read signed and clamped into [0, N − 1].
  * A scatter of rows [n, D] into a table [N, D] at a column [n, 1] of start positions: update entry (p, q) lands
    on table entry (start p, q) when the start, read signed and not clamped, is a row of the table, and is
    dropped otherwise. Only the first half is needed: where an update lands, its start is that row.
-/
import Idealize.ShloMosaic.PureOps.Ideal
import Idealize.ShloMosaic.Lib.StableHlo.Predicate
import Idealize.ShloMosaic.Lib.ValueIdx

noncomputable section

namespace Cert.Gcn

open Idealize.ShloMosaic Idealize.ShloMosaic.StableHlo.Predicate

/-- Result entry (p, q) of a row gather is the table at row clamp(start p), column q. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) (hN : 0 < N) :
    Host.gather d x idx (ij p q) = x (ij ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil
  -- a coordinate read through a one-element axis list is the coordinate on that axis
  have key0 : ∀ (l : List (Fin 2)) (k : Nat) (hk : k < l.length), l = [0] → ((ij p q) (l[k])).val = p.val := by
    intro l k hk hl; subst hl
    have : k = 0 := by simpa using hk
    subst this; rfl
  have key1 : ∀ (l : List (Fin 2)) (k : Nat) (hk : k < l.length), l = [1] → ((ij p q) (l[k])).val = q.val := by
    intro l k hk hl; subst hl
    have : k = 0 := by simpa using hk
    subst this; rfl
  have ha : a = 0 ∨ a = 1 := by
    match a with
    | ⟨0, _⟩ => exact Or.inl rfl
    | ⟨1, _⟩ => exact Or.inr rfl
  rcases ha with rfl | rfl
  · -- the row axis: collapsed (slice size one, no offset coordinate) and the one start-indexed axis
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ixP p)).toInt.toNat (N - 1)
    rw [hsl]
    have hsi : d.siIdx (ij p q) ⟨List.idxOf (0 : Fin 2) d.startIndexMap, List.idxOf_lt_length_iff.2 hm⟩ = ixP p := by
      funext b
      have hb' : b = 0 ∨ b = 1 := by
        match b with
        | ⟨0, _⟩ => exact Or.inl rfl
        | ⟨1, _⟩ => exact Or.inr rfl
      rcases hb' with rfl | rfl
      · -- the batch coordinate: the result's axis 0 is its one batch axis, reading the start indices' axis 0
        unfold GatherDims.siIdx
        rw [dif_neg (by rw [hivd]; exact Nat.zero_ne_one)]
        unfold GatherDims.siCoord
        apply Fin.ext
        simp only [Fin.val_cast]
        exact key0 _ _ _ (by show Shape.kept _ d.offsetDims = _; rw [hoff]; rfl)
      · unfold GatherDims.siIdx
        rw [dif_pos (by rw [hivd]; rfl)]
        apply Fin.ext
        show List.idxOf (0 : Fin 2) d.startIndexMap = 0
        rw [hsim]; simp
    rw [hsi]
  · -- the column axis: kept, not start-indexed; its offset coordinate is the result's column
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk]
    exact key1 _ _ _ hoff

/-- Where update entry `u` of a row scatter lands on table entry `i`, the start of `u`'s row, read signed, is
    `i`'s row, and the columns agree. -/
theorem scatter_rows_landing {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (idx : IVec ⟨2, ![n, 1]⟩ w) (u : (⟨2, ![n, D]⟩ : Shape).Idx) (i : (⟨2, ![N, D]⟩ : Shape).Idx)
    (h : d.resultIdx? u idx = some i) :
    (idx (ixP (u 0))).toInt = ((i 0).val : Int) ∧ (u 1).val = (i 1).val := by
  -- a coordinate read through a one-element axis list is the coordinate on that axis
  have key0 : ∀ (l : List (Fin 2)) (k : Nat) (hk : k < l.length), l = [0] → (u (l[k])).val = (u 0).val := by
    intro l k hk hl; subst hl
    have : k = 0 := by simpa using hk
    subst this; rfl
  have key1 : ∀ (l : List (Fin 2)) (k : Nat) (hk : k < l.length), l = [1] → (u (l[k])).val = (u 1).val := by
    intro l k hk hl; subst hl
    have : k = 0 := by simpa using hk
    subst this; rfl
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept, List.mem_filter, List.mem_finRange]
  -- the start of row `u 0` is read at row `u 0` of the column of positions
  have hsi : d.siIdx u ⟨List.idxOf (0 : Fin 2) d.scatterDimsToOperandDims, List.idxOf_lt_length_iff.2 hm0⟩ = ixP (u 0) := by
    funext b
    have hb' : b = 0 ∨ b = 1 := by
      match b with
      | ⟨0, _⟩ => exact Or.inl rfl
      | ⟨1, _⟩ => exact Or.inr rfl
    rcases hb' with rfl | rfl
    · unfold ScatterDims.siIdx
      rw [dif_neg (by rw [hivd]; exact Nat.zero_ne_one)]
      unfold ScatterDims.siCoord
      apply Fin.ext
      simp only [Fin.val_cast]
      exact key0 _ _ _ (by show Shape.kept _ d.updateWindowDims = _; rw [huw]; rfl)
    · unfold ScatterDims.siIdx
      rw [dif_pos (by rw [hivd]; rfl)]
      apply Fin.ext
      show List.idxOf (0 : Fin 2) d.scatterDimsToOperandDims = 0
      rw [hsd]; simp
  have hs0 : d.start u idx 0 = (idx (ixP (u 0))).toInt := by
    unfold ScatterDims.start; rw [dif_pos hm0, hsi]; rfl
  have hs1 : d.start u idx 1 = 0 := by unfold ScatterDims.start; rw [dif_neg hm1]
  have hw0 : d.window u 0 = 0 := by unfold ScatterDims.window; rw [dif_neg hk0]
  have hw1 : d.window u 1 = (u 1).val := by
    unfold ScatterDims.window; rw [dif_pos hk1]; exact key1 _ _ _ huw
  unfold ScatterDims.resultIdx? at h
  split at h
  · rename_i hall
    obtain rfl := Option.some.inj h
    have h0 := (hall 0).1
    rw [hs0, hw0] at h0
    constructor
    · show (idx (ixP (u 0))).toInt = (((d.start u idx 0 + (d.window u 0 : Int)).toNat : Nat) : Int)
      rw [hs0, hw0]; omega
    · show (u 1).val = (d.start u idx 1 + (d.window u 1 : Int)).toNat
      rw [hs1, hw1]; omega
  · exact absurd h (by simp)

end Cert.Gcn

end
-- ==== Proof.LayerLaw.lean ====
/-
  The law that joins the two arrangements of one graph-convolution aggregation, on the extended reals.

  With `dv` a per-node scale that is a nonnegative real at every node, `hw` a node table, `sI` the edges'
  source positions and `dI` their destination positions:

    ( Σ_{e lands on n} hw(src e, j) · dv(src e) ) · dv(n)  =  Σ_{e lands on n} hw(src e, j) · ( dv(src e) · dv(dst' e) )

  where dst' e is the destination position read through a clamping gather; for an edge that lands on n it IS n.
  The left side scales each node row before the aggregation and the sum after it; the right side scales each
  message by the product of the two end scales. Multiplication by a nonnegative real distributes over any sum of
  extended reals, and multiplication of extended reals is associative, so no finiteness of `hw` is needed.
-/
import Idealize.ShloMosaic.PureOps.Ideal
import Idealize.ShloMosaic.Lib.StableHlo.Predicate
import Idealize.ShloMosaic.Lib.ValueIdx
import proofs.«139671_j85933705658442_1_alg».proof.Proof.GatherScatter

noncomputable section

open scoped BigOperators

namespace Cert.Gcn

open Idealize.ShloMosaic Idealize.ShloMosaic.StableHlo.Predicate

/-- A sum of extended reals times a nonnegative real is the sum of the products. -/
theorem sum_mul_nonneg_real {ι : Type} (S : Finset ι) (f : ι → EReal) (r : ℝ) (hr : 0 ≤ r) :
    (∑ u ∈ S, f u) * (r : EReal) = ∑ u ∈ S, f u * (r : EReal) := by
  classical
  induction S using Finset.induction_on with
  | empty => simp
  | insert a s ha ih =>
    -- a nonnegative real factor is nonnegative and not ⊤, which is when it distributes over a sum of two
    rw [Finset.sum_insert ha, Finset.sum_insert ha,
      EReal.right_distrib_of_nonneg_of_ne_top (EReal.coe_nonneg.mpr hr) (EReal.coe_ne_top r), ih]

/-- The value a guarded reciprocal square root takes is always a nonnegative real. -/
theorem guarded_rsqrt_nonneg_real (x : EReal) :
    ∃ r : ℝ, 0 ≤ r ∧ (if (0 : EReal) < x then Ideal.rsqrt x else 0) = (r : EReal) := by
  induction x using EReal.rec with
  | bot => exact ⟨0, le_refl _, by simp⟩
  | top => exact ⟨0, le_refl _, by simp⟩
  | coe r =>
    by_cases h : (0 : EReal) < (r : EReal)
    · -- a positive real: the reciprocal of its square root, a nonnegative real
      have hr : 0 < r := by exact_mod_cast h
      refine ⟨(Real.sqrt r)⁻¹, inv_nonneg.mpr (Real.sqrt_nonneg r), ?_⟩
      rw [if_pos h, Ideal.rsqrt_coe, if_neg (not_lt.mpr hr.le), if_neg hr.ne']
    · exact ⟨0, le_refl _, by rw [if_neg h]; rfl⟩

/-- A row gather read at any index of the result: the index is (its row, its column). -/
private theorem gather_rows_at {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (hN : 0 < N) (u : (⟨2, ![n, D]⟩ : Shape).Idx) :
    Host.gather d x idx u = x (ij ⟨min (idx (ixP (u 0))).toInt.toNat (N - 1), by omega⟩ (u 1)) := by
  exact (congrArg (Host.gather d x idx) (ij_eta u)).symm.trans (gather_rows d hoff hcoll hob hsim hivd x idx (u 0) (u 1) hN)

/-- THE LAYER LAW at one entry of the aggregated table. -/
theorem layer_law {N D n : Nat} (hN : 0 < N)
    (gd2 : GatherDims ⟨2, ![N, D]⟩ ⟨2, ![n, 1]⟩ ⟨2, ![n, D]⟩)
    (hoff : gd2.offsetDims = [1]) (hcoll : gd2.collapsedSliceDims = [0]) (hob : gd2.operandBatchingDims = [])
    (hsim : gd2.startIndexMap = [0]) (hivd : gd2.indexVectorDim = 1)
    (gd1 : GatherDims ⟨1, ![N]⟩ ⟨2, ![n, 1]⟩ ⟨1, ![n]⟩)
    (hcoll1 : gd1.collapsedSliceDims = [0]) (hob1 : gd1.operandBatchingDims = [])
    (hsim1 : gd1.startIndexMap = [0]) (hivd1 : gd1.indexVectorDim = 1)
    (sd2 : ScatterDims ⟨2, ![N, D]⟩ ⟨2, ![n, 1]⟩ ⟨2, ![n, D]⟩)
    (huw : sd2.updateWindowDims = [1]) (hiw : sd2.insertedWindowDims = [0]) (hsd : sd2.scatterDimsToOperandDims = [0])
    (hivds : sd2.indexVectorDim = 1)
    (hw : (⟨2, ![N, D]⟩ : Shape).Idx → EReal) (dv : (⟨1, ![N]⟩ : Shape).Idx → EReal)
    (hdv : ∀ k, ∃ r : ℝ, 0 ≤ r ∧ dv k = (r : EReal))
    (z : (⟨2, ![N, D]⟩ : Shape).Idx → EReal) (hz : ∀ i, z i = 0)
    (sI dI dI' : IVec ⟨2, ![n, 1]⟩ 32)
    (hdI : ∀ e : Fin n, 0 ≤ (dI (ixP e)).toInt → (dI (ixP e)).toInt < (N : Int) →
      min (dI' (ixP e)).toInt.toNat (N - 1) = (dI (ixP e)).toInt.toNat)
    (i : (⟨2, ![N, D]⟩ : Shape).Idx) :
    Ideal.hostScatterAdd sd2 z dI (Host.gather gd2 (fun k => hw k * dv (Shape.Idx.ofFin (k 0))) sI) i
        * dv (Shape.Idx.ofFin (i 0))
      = Ideal.hostScatterAdd sd2 z dI (fun u => Host.gather gd2 hw sI u
          * (Host.gather gd1 dv sI (Shape.Idx.ofFin (u 0)) * Host.gather gd1 dv dI' (Shape.Idx.ofFin (u 0)))) i := by
  unfold Ideal.hostScatterAdd
  rw [hz, zero_add, zero_add]
  -- the scale at the landing row is a nonnegative real, so it goes inside the sum
  obtain ⟨r, hr, hdvr⟩ := hdv (Shape.Idx.ofFin (i 0))
  rw [hdvr, sum_mul_nonneg_real _ _ r hr]
  apply Finset.sum_congr rfl
  intro u hu
  rw [← hdvr]
  -- an update that lands on entry i has its destination position at i's row
  obtain ⟨hrow, _⟩ := scatter_rows_landing sd2 huw hiw hsd hivds dI u i (Finset.mem_filter.mp hu).2
  have hiN : (i 0).val < N := (i 0).isLt
  have hR : min (dI' (ixP (u 0))).toInt.toNat (N - 1) = (i 0).val := by
    have h1 := hdI (u 0) (by rw [hrow]; exact Int.natCast_nonneg _) (by rw [hrow]; exact_mod_cast hiN)
    rw [h1, hrow]; exact Int.toNat_natCast _
  -- read the four gathers at u
  have e1 := gather_rows_at gd2 hoff hcoll hob hsim hivd (fun k => hw k * dv (Shape.Idx.ofFin (k 0))) sI hN u
  have e2 := gather_rows_at gd2 hoff hcoll hob hsim hivd hw sI hN u
  have e3 := gather_take gd1 hcoll1 hob1 hsim1 hivd1 dv sI (u 0) hN
  have e4 := gather_take gd1 hcoll1 hob1 hsim1 hivd1 dv dI' (u 0) hN
  have e5 : (Shape.Idx.ofFin ⟨min (dI' (ixP (u 0))).toInt.toNat (N - 1), by omega⟩ : (⟨1, ![N]⟩ : Shape).Idx)
      = Shape.Idx.ofFin (i 0) := by
    congr 1; exact Fin.ext hR
  beta_reduce
  rw [e1, e2, e3, e4, e5]
  exact mul_assoc _ _ _

end Cert.Gcn

end
-- ==== Proof.BridgeFacts.lean ====
/-
  Two small facts the layer law is applied with.

  * The per-node scale d = deg^(-1/2) where deg > 0, zero elsewhere, is a nonnegative real at every node.
  * A destination position that is a node (read signed) is left alone by the index normalisation, and the clamp
    of a gather leaves it alone too.
-/
import proofs.«139671_j85933705658442_1_alg».proof.Proof.SpecOps
import proofs.«139671_j85933705658442_1_alg».proof.Proof.LayerLaw
import Idealize.ShloMosaic.PureOps.Ideal.Laws
import Idealize.ShloMosaic.Lib.ValueIdx
import Idealize.ShloMosaic.Lib.StableHlo.Predicate

noncomputable section

namespace Cert.Gcn

open Idealize.ShloMosaic Idealize.ShloMosaic.ValueIdx Idealize.ShloMosaic.StableHlo.Predicate

/-- The choice between a reciprocal square root and zero on the bit of "x > 0", at one value. -/
private theorem guarded_select (x : EReal) :
    Scalar.select (Ideal.cmp .ogt x 0) (Ideal.rsqrt x) 0 = if (0 : EReal) < x then Ideal.rsqrt x else 0 := by
  by_cases hp : (0 : EReal) < x
  · have hc : Ideal.cmp .ogt x 0 = 1#1 := (ofBool_eq_one_iff _).mpr (decide_eq_true hp)
    rw [if_pos hp, hc, select_one]
  · have hc : Ideal.cmp .ogt x 0 = 0#1 :=
      eq_zero_of_ne_one fun h1 => hp (of_decide_eq_true ((ofBool_eq_one_iff _).mp h1))
    rw [if_neg hp, hc, select_zero]

/-- The guarded reciprocal square root of any vector, read at an index where the two constants are zero. -/
private theorem dinv_at {s : Shape} (deg z z' : FVec Ideal s .f32) (k : s.Idx) (hz : z k = 0) (hz' : z' k = 0) :
    select (cmpf .ogt deg z) (Host.rsqrt deg) z' k = if (0 : EReal) < deg k then Ideal.rsqrt (deg k) else 0 := by
  show Scalar.select (Ideal.cmp .ogt (deg k) (z k)) (Ideal.rsqrt (deg k)) (z' k) = _
  rw [hz, hz']
  exact guarded_select _

/-- The index normalisation of any vector of positions, read at an index where the position is not negative read
    signed: the test "below zero" fails, so the position is kept. -/
private theorem norm_at {s : Shape} (v c0 cN : IVec s 32) (i : s.Idx) (hc0 : c0 i = 0#32) (h0 : 0 ≤ (v i).toInt) :
    select (cmpi .slt v c0) (addi v cN) v i = v i := by
  show Scalar.select (IntOp.cmpi .slt (v i) (c0 i)) (IntOp.addi (v i) (cN i)) (v i) = v i
  rw [hc0]
  have hlt : (v i).slt 0#32 = false := by
    unfold BitVec.slt
    exact decide_eq_false (by rw [show (0#32).toInt = 0 from rfl]; omega)
  have hc : IntOp.cmpi .slt (v i) 0#32 = 0#1 := by
    show BitVec.ofBool ((v i).slt 0#32) = 0#1
    rw [hlt]; rfl
  rw [hc, select_zero]

/-- The scale is a nonnegative real at every node. -/
theorem dinvV_nonneg_real (dst : IVec S1700000 32) (k : S100000.Idx) :
    ∃ r : ℝ, 0 ≤ r ∧ dinvV dst k = (r : EReal) := by
  -- the zero constant laid over the nodes is zero at every node
  have hzero : ∀ (h : S_.BroadcastsInDim S100000 ![]) (j : S100000.Idx),
      broadcastInDim S100000 ![] h (constant (F := Ideal) S_ .f32 0x00000000#32) j = (0 : EReal) := by
    intro h j
    rw [bcast_scalar h (by decide)]
    exact Ideal.ofBits_zero_f32
  obtain ⟨r, hr, he⟩ := guarded_rsqrt_nonneg_real (degV dst k)
  refine ⟨r, hr, ?_⟩
  rw [← he]
  unfold dinvV
  exact dinv_at (degV dst) _ _ k (hzero _ k) (hzero _ k)

/-- A destination position that is a node (read signed) is left alone by the index normalisation, and the
    clamp of a gather leaves it alone too. -/
theorem normI_of_lands (v : IVec S1700000 32) (e : Fin 1700000)
    (h0 : 0 ≤ (colI v (ixP e)).toInt) (h1 : (colI v (ixP e)).toInt < (100000 : Int)) :
    min (colI (normI v) (ixP e)).toInt.toNat (100000 - 1) = (colI v (ixP e)).toInt.toNat := by
  -- the column of positions read at row e is the list of positions at e
  have hcol : ∀ x : IVec S1700000 32, colI x (ixP e) = x (Shape.Idx.ofFin e) := fun x => bcast_col1 _ x e
  rw [hcol] at h0 h1 ⊢
  rw [hcol]
  -- the zero constant laid over the positions is zero at every position
  have hk0 : ∀ (h : S_.BroadcastsInDim S1700000 ![]) (j : S1700000.Idx),
      broadcastInDim S1700000 ![] h (constantI S_ 32 0#32) j = 0#32 := by
    intro h j
    rw [bcast_scalar h (by decide)]
    rfl
  have hn : normI v (Shape.Idx.ofFin e) = v (Shape.Idx.ofFin e) := by
    unfold normI
    exact norm_at v _ _ _ (hk0 _ _) h0
  rw [hn]
  omega

end Cert.Gcn

end
-- ==== Proof.Bridge.lean ====
/-
  One layer, two ways, is one function: `layerK = layerR`.

  At node n and column j the kernel side is  (Σ_{e lands on n} (hW)(src e, j) · d(src e)) · d(n) + b(j)  and the
  reference side  Σ_{e lands on n} (hW)(src e, j) · (d(src e) · d(dst e)) + b(j),  both clipped at zero when the
  layer has its clip. The layer law joins the two sums; what is left is reading the small host operations at an
  index: the scale column is the scale vector, the bias row laid under every node is the bias, a destination
  position that lands on a node is not negative and so is left alone by the index normalisation, and the scale
  d = deg^(-1/2) where deg > 0, else 0, is a nonnegative real at every node.
-/
import proofs.«139671_j85933705658442_1_alg».proof.Proof.SpecOps
import proofs.«139671_j85933705658442_1_alg».proof.Proof.LayerLaw
import proofs.«139671_j85933705658442_1_alg».proof.Proof.BridgeFacts
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value
import Idealize.ShloMosaic.Lib.StableHlo.Predicate

noncomputable section

open scoped BigOperators

namespace Cert.Gcn

open Idealize.ShloMosaic Idealize.ShloMosaic.ValueIdx Idealize.ShloMosaic.StableHlo.Predicate

/-! ## Small reads -/

/-- The zero constant laid over any shape reads 0 everywhere. -/
theorem zero_bcast_apply {t : Shape} (h : (⟨0, ![]⟩ : Shape).BroadcastsInDim t ![]) (j : t.Idx) :
    broadcastInDim t ![] h (constant (F := Ideal) S_ .f32 0x00000000#32) j = (0 : EReal) := by
  rw [bcast_scalar h (by decide)]
  exact Ideal.ofBits_zero_f32

/-- The zero table is zero at every entry. -/
theorem zeroT_apply (i : S100000x128.Idx) : zeroT i = (0 : EReal) := zero_bcast_apply _ i

/-- The scale column read at row p is the scale vector at p. -/
theorem dcolV_apply (dst : IVec S1700000 32) (p : Fin 100000) :
    dcolV dst (ixP p) = dinvV dst (Shape.Idx.ofFin p) := by
  unfold dcolV
  -- a vector viewed as a one-column table: the same row-major position
  refine shapeCast_apply (dinvV dst) _ (ixP p) (Shape.Idx.ofFin p) ?_
  rw [Shape.rowMajor_val_one, Shape.rowMajor_val_two]
  show p.val = p.val * 1 + 0
  omega

/-- The bias kept as a row, read at column q, is the reference's bias table at any (p, q): both are b(q). -/
theorem bias_eq (b : FVec Ideal S128 .f32) (p : Fin 100000) (q : Fin 128) :
    shapeCast S1x128 b (by decide) (i1q q) = biasT b (ij p q) := by
  have h1 : shapeCast S1x128 b (by decide) (i1q q) = b (Shape.Idx.ofFin q) := by
    -- a vector viewed as a one-row table: the same row-major position
    refine shapeCast_apply b _ (i1q q) (Shape.Idx.ofFin q) ?_
    rw [Shape.rowMajor_val_one, Shape.rowMajor_val_two]
    show q.val = 0 * 128 + q.val
    omega
  rw [h1]
  unfold biasT
  exact (bcast_cols _ _ b p q).symm

/-! ## The aggregation, two ways -/

/-- The matrix product read at (a, c) is the sum over the contracted coordinate. -/
theorem dot_at {K : Nat} (h : FVec Ideal ⟨2, ![100000, K]⟩ .f32) (W : FVec Ideal ⟨2, ![K, 128]⟩ .f32)
    (a : Fin 100000) (c : Fin 128) :
    Host.dotGeneral (DotDims.plain 100000 K 128) none h W (ij a c) = ∑ k : Fin K, h (ij a k) * W (ij k c) :=
  StackMember.dotGeneral_plain_apply none h W a c

/-- The linear-and-scale stage at (a, c): the matrix product's entry times the scale of node a. -/
theorem GLin_at {K : Nat} (dst : IVec S1700000 32) (h : FVec Ideal ⟨2, ![100000, K]⟩ .f32)
    (W : FVec Ideal ⟨2, ![K, 128]⟩ .f32) (a : Fin 100000) (c : Fin 128) :
    GLin h W (dcolV dst) (ij a c)
      = Host.dotGeneral (DotDims.plain 100000 K 128) none h W (ij a c) * dinvV dst (Shape.Idx.ofFin a) := by
  rw [GLin_apply, dcolV_apply, dot_at]

/-- The linear-and-scale stage is the matrix product with every row scaled by the node's scale. -/
theorem GLin_eq {K : Nat} (dst : IVec S1700000 32) (h : FVec Ideal ⟨2, ![100000, K]⟩ .f32)
    (W : FVec Ideal ⟨2, ![K, 128]⟩ .f32) :
    GLin h W (dcolV dst)
      = fun k => Host.dotGeneral (DotDims.plain 100000 K 128) none h W k * dinvV dst (Shape.Idx.ofFin (k 0)) := by
  funext k
  -- k is (its row, its column)
  exact (congrArg (GLin h W (dcolV dst)) (ij_eta k)).symm.trans
    ((GLin_at dst h W (k 0) (k 1)).trans
      (congrArg (fun x => Host.dotGeneral (DotDims.plain 100000 K 128) none h W x * dinvV dst (Shape.Idx.ofFin (k 0)))
        (ij_eta k)))

/-- The reference's update read at edge e, column c: the gathered row entry times d(src e) · d(dst e). -/
theorem updR_at (src dst : IVec S1700000 32) (hw : FVec Ideal S100000x128 .f32) (e : Fin 1700000) (c : Fin 128) :
    mulf (Host.gather gd2 hw (colI (normI src))) (broadcastInDim S1700000x128 ![0, 1] (by decide) (normV src dst)) (ij e c)
      = Host.gather gd2 hw (colI (normI src)) (ij e c)
          * (Host.gather gd1 (dinvV dst) (colI (normI src)) (Shape.Idx.ofFin e)
              * Host.gather gd1 (dinvV dst) (colI (normI dst)) (Shape.Idx.ofFin e)) := by
  -- the weight column laid along the rows reads, at (e, c), the weight of edge e, itself a product
  rw [mulf_apply, bcast_of_col]
  unfold normV
  rw [bcast_col1, mulf_apply]

/-- The reference's update as a function of the update index. -/
theorem updR_eq (src dst : IVec S1700000 32) (hw : FVec Ideal S100000x128 .f32) :
    mulf (Host.gather gd2 hw (colI (normI src))) (broadcastInDim S1700000x128 ![0, 1] (by decide) (normV src dst))
      = fun u => Host.gather gd2 hw (colI (normI src)) u
          * (Host.gather gd1 (dinvV dst) (colI (normI src)) (Shape.Idx.ofFin (u 0))
              * Host.gather gd1 (dinvV dst) (colI (normI dst)) (Shape.Idx.ofFin (u 0))) := by
  funext u
  obtain ⟨e, c, rfl⟩ : ∃ (e : Fin 1700000) (c : Fin 128), u = ij e c := ⟨u 0, u 1, (ij_eta u).symm⟩
  -- the row of (e, c) is e
  exact updR_at src dst hw e c

/-- At the ideal values a scatter that adds colliding updates is the exact sum. -/
theorem scatterAdd_ideal {s si su : Shape} {w : Nat} {φ : FTy} (d : ScatterDims s si su) (x : FVec Ideal s φ)
    (idx : IVec si w) (upd : FVec Ideal su φ) :
    Host.scatterAdd d x idx upd = Ideal.hostScatterAdd d x idx upd := rfl

/-- The kernel side's aggregate, scaled at the landing node, is the reference side's aggregate. -/
theorem agg_eq {K : Nat} (src dst : IVec S1700000 32) (h : FVec Ideal ⟨2, ![100000, K]⟩ .f32)
    (W : FVec Ideal ⟨2, ![K, 128]⟩ .f32) (p : Fin 100000) (q : Fin 128) :
    aggK src dst (GLin h W (dcolV dst)) (ij p q) * dcolV dst (ixP p)
      = aggR src dst (Host.dotGeneral (DotDims.plain 100000 K 128) none h W) (ij p q) := by
  -- the scale column at row p is the scale vector at the row of (p, q)
  have hd : dcolV dst (ixP p) = dinvV dst (Shape.Idx.ofFin ((ij p q) 0)) := dcolV_apply dst p
  unfold aggK aggR
  rw [GLin_eq, updR_eq, hd, scatterAdd_ideal, scatterAdd_ideal]
  exact layer_law (N := 100000) (D := 128) (n := 1700000) (by decide)
    gd2 rfl rfl rfl rfl rfl gd1 rfl rfl rfl rfl sd2 rfl rfl rfl rfl
    (Host.dotGeneral (DotDims.plain 100000 K 128) none h W) (dinvV dst) (dinvV_nonneg_real dst)
    zeroT zeroT_apply (colI (normI src)) (colI dst) (colI (normI dst))
    (fun e h0 h1 => normI_of_lands dst e h0 (by exact_mod_cast h1)) (ij p q)

/-- ONE LAYER, TWO WAYS. -/
theorem layer_eq (relu : Bool) {K : Nat} (src dst : IVec S1700000 32) (h : FVec Ideal ⟨2, ![100000, K]⟩ .f32)
    (W : FVec Ideal ⟨2, ![K, 128]⟩ .f32) (b : FVec Ideal S128 .f32) :
    layerK relu src dst h W b = layerR relu src dst h W b := by
  funext i
  obtain ⟨p, q, rfl⟩ : ∃ (p : Fin 100000) (q : Fin 128), i = ij p q := ⟨i 0, i 1, (ij_eta i).symm⟩
  unfold layerK layerR
  -- the kernel side at (p, q): the scaled aggregate plus the bias, which are the reference's two tables at (p, q)
  rw [GPost_apply, agg_eq, bias_eq b p q]
  cases relu
  · -- no clip: the sum of the two tables, entry by entry
    rw [if_neg Bool.false_ne_true, if_neg Bool.false_ne_true, addf_apply]
  · -- the clip: the maximum with the zero table, which is zero at every entry
    rw [if_pos rfl, if_pos rfl]
    unfold reluT
    rw [maximumf_apply, addf_apply, zero_bcast_apply]

/-- The two programs' results are one function of the arguments. -/
theorem result_eq (x : FVec Ideal S100000x26 .f32) (ei : IVec S2x1600000 32) (bt : IVec S100000 32)
    (W1 : FVec Ideal S26x128 .f32) (b1 : FVec Ideal S128 .f32) (W2 : FVec Ideal S128x128 .f32) (b2 : FVec Ideal S128 .f32)
    (W3 : FVec Ideal S128x128 .f32) (b3 : FVec Ideal S128 .f32) :
    resultK x ei bt W1 b1 W2 b2 W3 b3 = resultR x ei bt W1 b1 W2 b2 W3 b3 := by
  unfold resultK resultR
  rw [layer_eq, layer_eq, layer_eq]

end Cert.Gcn

end
-- ==== Proof.lean ====
/-
  The certificate of a three-layer graph-convolution encoder with a mean pool: a Pallas kernel program of six
  TensorCore regions against its jnp reference, equal over the extended reals.

  Both programs add one self loop per node to the edge list, count the in-degree deg, and scale by
  d = deg^(-1/2) where deg > 0 (zero elsewhere). A layer of the reference multiplies the node table by the
  weights, gathers the rows at the edges' sources, scales each message by d(src) · d(dst), adds the messages up
  per destination and adds the bias. The kernel program scales the product's rows by d BEFORE the gather (a
  linear-and-scale region), adds the gathered rows up per destination on the host, and scales by d AGAIN after
  the sum, adds the bias and clips (a scale-bias region):

      ( Σ_{e lands on n} (hW)(src e, j) · d(src e) ) · d(n)  =  Σ_{e lands on n} (hW)(src e, j) · ( d(src e) · d(dst e) ).

  The scale d(n) is a nonnegative real whatever the edges are (a count is never negative and the reciprocal
  square root is guarded), and multiplication by a nonnegative real distributes over every sum of extended
  reals, so the law needs no finiteness of the node table: the precondition is not opened. A destination
  position outside the table is dropped by both programs' scatters alike, and a source position outside it is
  clamped by both programs' gathers alike, so the law holds for every edge table.

  * The three frames: the kernel programs' are generated whole; the reference's is its run with the result
    dropped.
  * `preserves` has no ledger entry.
  * `algebraic`: the kernel program's run with its result named (the generated launch, re-posted), read back
    through the thirteen segments to the mean pool of three kernel-side layers; the reference's run, its
    operations read back stretch by stretch to the mean pool of three reference-side layers; and the layer law between them.
-/
import proofs.«139671_j85933705658442_1_alg».proof.Defs
import proofs.«139671_j85933705658442_1_alg».proof.Proof.Gen.Kernel
import proofs.«139671_j85933705658442_1_alg».proof.Proof.Gen.Kernel.Skeleton
import proofs.«139671_j85933705658442_1_alg».proof.Proof.Gen.Kernel.Launch
import proofs.«139671_j85933705658442_1_alg».proof.Proof.Gen.Kernel.Points
import proofs.«139671_j85933705658442_1_alg».proof.Proof.Gen.Kernel.Frame
import proofs.«139671_j85933705658442_1_alg».proof.Proof.Gen.KernelIdeal
import proofs.«139671_j85933705658442_1_alg».proof.Proof.Gen.KernelIdeal.Skeleton
import proofs.«139671_j85933705658442_1_alg».proof.Proof.Gen.KernelIdeal.Launch
import proofs.«139671_j85933705658442_1_alg».proof.Proof.Gen.KernelIdeal.Points
import proofs.«139671_j85933705658442_1_alg».proof.Proof.Gen.KernelIdeal.Frame
import proofs.«139671_j85933705658442_1_alg».proof.Proof.Gen.ReferenceIdeal
import proofs.«139671_j85933705658442_1_alg».proof.Proof.Gen.Pre_finite_inputs
import proofs.«139671_j85933705658442_1_alg».proof.Proof.KRun
import proofs.«139671_j85933705658442_1_alg».proof.Proof.KWalk
import proofs.«139671_j85933705658442_1_alg».proof.Proof.RefValue
import proofs.«139671_j85933705658442_1_alg».proof.Proof.Bridge
import Idealize.ShloMosaic.Adequacy
import Idealize.ShloMosaic.Init

noncomputable section

namespace Cert.Proof

open Idealize.ShloMosaic Idealize.SL.Sem

/-- The kernel program and the reference, run from memories that agree on the arguments, both end with the mean
    pool of three layers of those arguments: kernel-side layers for the one, reference-side for the other, and the
    two are one function. -/
theorem algebraic : Cert.algebraic_KernelIdeal_ReferenceIdeal := by
  intro m ρ m' ρ' _ hagree
  refine ⟨fun c => Cert.Gcn.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.GcnWalk.result_eq m ρ c), (h c).2⟩)
      (Cert.KernelIdeal.GcnRun.run_named (F := Ideal) m ρ)
  · refine (θ_run Cert.ReferenceIdeal.defs _ _).mono (fun r h c => ⟨(h c).1.trans ?_, (h c).2⟩)
      (Cert.ReferenceIdeal.GcnRef.run_named m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    exact (Cert.Gcn.result_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.GcnRef.run_named m ρ),
    trivial,
    algebraic⟩

end Cert.Proof

end
